-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S160000 : Shape := ⟨1, ![160000]⟩
abbrev S512x512 : Shape := ⟨2, ![512, 512]⟩
abbrev S512 : Shape := ⟨1, ![512]⟩
abbrev S1025x64 : Shape := ⟨2, ![1025, 64]⟩
abbrev S64 : Shape := ⟨1, ![64]⟩
abbrev S64x1 : Shape := ⟨2, ![64, 1]⟩
abbrev S1 : Shape := ⟨1, ![1]⟩
abbrev S2x160000 : Shape := ⟨2, ![2, 160000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1025x64 : S_.BroadcastsInDim S1025x64 (![] : Fin 0 → Fin S1025x64.rank)
  reducesTo_S1025x64_S_d0_1 : S1025x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S512 .f32) (main_arg8 : FVec F S512x512 .f32) (main_arg9 : FVec F S1025x64 .f32) (main_arg10 : FVec F S64 .f32) (main_arg11 : FVec F S64x1 .f32) (main_arg12 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S1025x64 .f32 := Host.absf main_arg9
  let main_cst_16 : FVec F S_ .f32 := constant S_ .f32 0x7F800000#32
  let main_v45 : FVec F S1025x64 .f32 := broadcastInDim S1025x64 ![] bcast_S_S1025x64 main_cst_16
  let main_v46 : IVec S1025x64 1 := cmpf .olt main_v44 main_v45
  let main_c_17 : IVec S_ 1 := constantI S_ 1 1#1
  let main_v47 : IVec S_ 1 := (fun x v => Host.reduce IntOp.andi x v reducesTo_S1025x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S1025x64 .f32) (main_arg10 : FVec F S64 .f32) (main_arg11 : FVec F S64x1 .f32) (main_arg12 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S10000x512 .f32) (main_arg1 : FVec F S160000 .f32) (main_arg2 : FVec F S160000 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S1025x64 .f32) (main_arg10 : FVec F S64 .f32) (main_arg11 : FVec F S64x1 .f32) (main_arg12 : FVec F S1 .f32) (main_arg13 : IVec S2x160000 32) (main_arg14 : IVec S2x160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S160000 .f32 := Host.absf main_arg1
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S160000 .f32 := Host.absf main_arg2
  let main_cst_2 : FVec F S_ .f32 := constant S_ .f32 0x7F800000#32
  let main_v10 : FVec F S160000 .f32 := broadcastInDim S160000 ![] bcast_S_S160000 main_cst_2
  let main_v11 : IVec S160000 1 := cmpf .olt main_v9 main_v10
  let main_c_3 : IVec S_ 1 := constantI S_ 1 1#1
  let main_v12 : IVec S_ 1 := (fun x v => Host.reduce IntOp.andi x v reducesTo_S160000_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S10000x512 : Shape := ⟨2, ![10000, 512]⟩
abbrev S160000 : Shape := ⟨1, ![160000]⟩
abbrev S512x512 : Shape := ⟨2, ![512, 512]⟩
abbrev S512 : Shape := ⟨1, ![512]⟩
abbrev S1025x64 : Shape := ⟨2, ![1025, 64]⟩
abbrev S64 : Shape := ⟨1, ![64]⟩
abbrev S64x1 : Shape := ⟨2, ![64, 1]⟩
abbrev S1 : Shape := ⟨1, ![1]⟩
abbrev S2x160000 : Shape := ⟨2, ![2, 160000]⟩
abbrev S1x160000 : Shape := ⟨2, ![1, 160000]⟩
abbrev S_ : Shape := ⟨0, ![]⟩
abbrev S10000 : Shape := ⟨1, ![10000]⟩
abbrev S160000x1 : Shape := ⟨2, ![160000, 1]⟩
abbrev S160000x512 : Shape := ⟨2, ![160000, 512]⟩
abbrev S10000x1 : Shape := ⟨2, ![10000, 1]⟩
abbrev S1x512 : Shape := ⟨2, ![1, 512]⟩
abbrev S2000x512 : Shape := ⟨2, ![2000, 512]⟩
abbrev S512x64 : Shape := ⟨2, ![512, 64]⟩
abbrev S1x64 : Shape := ⟨2, ![1, 64]⟩
abbrev S1x1 : Shape := ⟨2, ![1, 1]⟩
abbrev S8000x512 : Shape := ⟨2, ![8000, 512]⟩
abbrev S8000x1 : Shape := ⟨2, ![8000, 1]⟩
abbrev S8000x64 : Shape := ⟨2, ![8000, 64]⟩

abbrev nBuf : Space → Nat
  | .hbm => 109
  | .vmem => 32
  | .smem => 0
  | _ => 0

abbrev bufTy : (tb : Table) → Fin (tcTables nBuf tb) → BufTy
  | .hbm, ⟨0, _⟩ => ⟨S10000x512, .f32⟩
  | .hbm, ⟨1, _⟩ => ⟨S160000, .f32⟩
  | .hbm, ⟨2, _⟩ => ⟨S160000, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S1025x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S2x160000, .i32⟩
  | .hbm, ⟨14, _⟩ => ⟨S2x160000, .i32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S_, .f32⟩
  | .hbm, ⟨20, _⟩ => ⟨S160000, .f32⟩
  | .hbm, ⟨21, _⟩ => ⟨S_, .f32⟩
  | .hbm, ⟨22, _⟩ => ⟨S10000, .f32⟩
  | .hbm, ⟨23, _⟩ => ⟨S160000x1, .i32⟩
  | .hbm, ⟨24, _⟩ => ⟨S10000, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S160000, .i32⟩
  | .hbm, ⟨33, _⟩ => ⟨S160000, .i1⟩
  | .hbm, ⟨34, _⟩ => ⟨S_, .i32⟩
  | .hbm, ⟨35, _⟩ => ⟨S160000, .i32⟩
  | .hbm, ⟨36, _⟩ => ⟨S160000, .i32⟩
  | .hbm, ⟨37, _⟩ => ⟨S160000, .i32⟩
  | .hbm, ⟨38, _⟩ => ⟨S160000x1, .i32⟩
  | .hbm, ⟨39, _⟩ => ⟨S160000x512, .f32⟩
  | .hbm, ⟨40, _⟩ => ⟨S160000x1, .f32⟩
  | .hbm, ⟨41, _⟩ => ⟨S160000x512, .f32⟩
  | .hbm, ⟨42, _⟩ => ⟨S160000x512, .f32⟩
  | .hbm, ⟨43, _⟩ => ⟨S_, .f32⟩
  | .hbm, ⟨44, _⟩ => ⟨S10000x512, .f32⟩
  | .hbm, ⟨45, _⟩ => ⟨S160000x1, .i32⟩
  | .hbm, ⟨46, _⟩ => ⟨S10000x512, .f32⟩
  | .hbm, ⟨47, _⟩ => ⟨S10000x1, .f32⟩
  | .hbm, ⟨48, _⟩ => ⟨S10000x512, .f32⟩
  | .hbm, ⟨49, _⟩ => ⟨S10000x512, .f32⟩
  | .hbm, ⟨50, _⟩ => ⟨S10000x512, .bf16⟩
  | .hbm, ⟨51, _⟩ => ⟨S10000x512, .bf16⟩
  | .hbm, ⟨52, _⟩ => ⟨S1x512, .f32⟩
  | .hbm, ⟨53, _⟩ => ⟨S10000x512, .f32⟩
  | .hbm, ⟨54, _⟩ => ⟨S_, .i32⟩
  | .hbm, ⟨55, _⟩ => ⟨S160000, .i32⟩
  | .hbm, ⟨56, _⟩ => ⟨S160000, .i1⟩
  | .hbm, ⟨57, _⟩ => ⟨S_, .i32⟩
  | .hbm, ⟨58, _⟩ => ⟨S160000, .i32⟩
  | .hbm, ⟨59, _⟩ => ⟨S160000, .i32⟩
  | .hbm, ⟨60, _⟩ => ⟨S160000, .i32⟩
  | .hbm, ⟨61, _⟩ => ⟨S160000x1, .i32⟩
  | .hbm, ⟨62, _⟩ => ⟨S160000x512, .f32⟩
  | .hbm, ⟨63, _⟩ => ⟨S160000x1, .f32⟩
  | .hbm, ⟨64, _⟩ => ⟨S160000x512, .f32⟩
  | .hbm, ⟨65, _⟩ => ⟨S160000x512, .f32⟩
  | .hbm, ⟨66, _⟩ => ⟨S_, .f32⟩
  | .hbm, ⟨67, _⟩ => ⟨S10000x512, .f32⟩
  | .hbm, ⟨68, _⟩ => ⟨S160000x1, .i32⟩
  | .hbm, ⟨69, _⟩ => ⟨S10000x512, .f32⟩
  | .hbm, ⟨70, _⟩ => ⟨S10000x1, .f32⟩
  | .hbm, ⟨71, _⟩ => ⟨S10000x512, .f32⟩
  | .hbm, ⟨72, _⟩ => ⟨S10000x512, .f32⟩
  | .hbm, ⟨73, _⟩ => ⟨S10000x512, .bf16⟩
  | .hbm, ⟨74, _⟩ => ⟨S10000x512, .bf16⟩
  | .hbm, ⟨75, _⟩ => ⟨S1x512, .f32⟩
  | .hbm, ⟨76, _⟩ => ⟨S10000x512, .f32⟩
  | .hbm, ⟨77, _⟩ => ⟨S1x160000, .i32⟩
  | .hbm, ⟨78, _⟩ => ⟨S160000, .i32⟩
  | .hbm, ⟨79, _⟩ => ⟨S_, .i32⟩
  | .hbm, ⟨80, _⟩ => ⟨S160000, .i32⟩
  | .hbm, ⟨81, _⟩ => ⟨S160000, .i1⟩
  | .hbm, ⟨82, _⟩ => ⟨S_, .i32⟩
  | .hbm, ⟨83, _⟩ => ⟨S160000, .i32⟩
  | .hbm, ⟨84, _⟩ => ⟨S160000, .i32⟩
  | .hbm, ⟨85, _⟩ => ⟨S160000, .i32⟩
  | .hbm, ⟨86, _⟩ => ⟨S160000x1, .i32⟩
  | .hbm, ⟨87, _⟩ => ⟨S160000x512, .f32⟩
  | .hbm, ⟨88, _⟩ => ⟨S1x160000, .i32⟩
  | .hbm, ⟨89, _⟩ => ⟨S160000, .i32⟩
  | .hbm, ⟨90, _⟩ => ⟨S_, .i32⟩
  | .hbm, ⟨91, _⟩ => ⟨S160000, .i32⟩
  | .hbm, ⟨92, _⟩ => ⟨S160000, .i1⟩
  | .hbm, ⟨93, _⟩ => ⟨S_, .i32⟩
  | .hbm, ⟨94, _⟩ => ⟨S160000, .i32⟩
  | .hbm, ⟨95, _⟩ => ⟨S160000, .i32⟩
  | .hbm, ⟨96, _⟩ => ⟨S160000, .i32⟩
  | .hbm, ⟨97, _⟩ => ⟨S160000x1, .i32⟩
  | .hbm, ⟨98, _⟩ => ⟨S160000x512, .f32⟩
  | .hbm, ⟨99, _⟩ => ⟨S160000x1, .f32⟩
  | .hbm, ⟨100, _⟩ => ⟨S512x64, .f32⟩
  | .hbm, ⟨101, _⟩ => ⟨S512x64, .f32⟩
  | .hbm, ⟨102, _⟩ => ⟨S1x64, .f32⟩
  | .hbm, ⟨103, _⟩ => ⟨S160000x512, .bf16⟩
  | .hbm, ⟨104, _⟩ => ⟨S160000x512, .bf16⟩
  | .hbm, ⟨105, _⟩ => ⟨S1x64, .f32⟩
  | .hbm, ⟨106, _⟩ => ⟨S1x1, .f32⟩
  | .hbm, ⟨107, _⟩ => ⟨S160000x1, .f32⟩
  | .hbm, ⟨108, _⟩ => ⟨S160000, .f32⟩
  | .local _ .vmem, ⟨0, _⟩ => ⟨S2000x512, .bf16⟩
  | .local _ .vmem, ⟨1, _⟩ => ⟨S2000x512, .bf16⟩
  | .local _ .vmem, ⟨2, _⟩ => ⟨S2000x512, .bf16⟩
  | .local _ .vmem, ⟨3, _⟩ => ⟨S2000x512, .bf16⟩
  | .local _ .vmem, ⟨4, _⟩ => ⟨S512x512, .f32⟩
  | .local _ .vmem, ⟨5, _⟩ => ⟨S1x512, .f32⟩
  | .local _ .vmem, ⟨6, _⟩ => ⟨S512x512, .f32⟩
  | .local _ .vmem, ⟨7, _⟩ => ⟨S2000x512, .f32⟩
  | .local _ .vmem, ⟨8, _⟩ => ⟨S2000x512, .f32⟩
  | .local _ .vmem, ⟨9, _⟩ => ⟨S2000x512, .bf16⟩
  | .local _ .vmem, ⟨10, _⟩ => ⟨S2000x512, .bf16⟩
  | .local _ .vmem, ⟨11, _⟩ => ⟨S2000x512, .bf16⟩
  | .local _ .vmem, ⟨12, _⟩ => ⟨S2000x512, .bf16⟩
  | .local _ .vmem, ⟨13, _⟩ => ⟨S512x512, .f32⟩
  | .local _ .vmem, ⟨14, _⟩ => ⟨S1x512, .f32⟩
  | .local _ .vmem, ⟨15, _⟩ => ⟨S512x512, .f32⟩
  | .local _ .vmem, ⟨16, _⟩ => ⟨S2000x512, .f32⟩
  | .local _ .vmem, ⟨17, _⟩ => ⟨S2000x512, .f32⟩
  | .local _ .vmem, ⟨18, _⟩ => ⟨S8000x512, .bf16⟩
  | .local _ .vmem, ⟨19, _⟩ => ⟨S8000x512, .bf16⟩
  | .local _ .vmem, ⟨20, _⟩ => ⟨S8000x512, .bf16⟩
  | .local _ .vmem, ⟨21, _⟩ => ⟨S8000x512, .bf16⟩
  | .local _ .vmem, ⟨22, _⟩ => ⟨S8000x1, .f32⟩
  | .local _ .vmem, ⟨23, _⟩ => ⟨S8000x1, .f32⟩
  | .local _ .vmem, ⟨24, _⟩ => ⟨S512x64, .f32⟩
  | .local _ .vmem, ⟨25, _⟩ => ⟨S512x64, .f32⟩
  | .local _ .vmem, ⟨26, _⟩ => ⟨S1x64, .f32⟩
  | .local _ .vmem, ⟨27, _⟩ => ⟨S1x64, .f32⟩
  | .local _ .vmem, ⟨28, _⟩ => ⟨S64x1, .f32⟩
  | .local _ .vmem, ⟨29, _⟩ => ⟨S1x1, .f32⟩
  | .local _ .vmem, ⟨30, _⟩ => ⟨S8000x1, .f32⟩
  | .local _ .vmem, ⟨31, _⟩ => ⟨S8000x1, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_10 : Ref sig .tc := ⟨.hbm, 90, rfl⟩
abbrev main_v63 : Ref sig .tc := ⟨.hbm, 91, rfl⟩
abbrev main_v64 : Ref sig .tc := ⟨.hbm, 92, rfl⟩
abbrev main_c_11 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S512x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bitsLt_bf16_f32 : FTy.bits .bf16 < FTy.bits .f32
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  shapeCasts_S160000_S160000x1 : S160000.ShapeCasts S160000x1
  slices_S1025x64_S512x64_0_0 : S1025x64.Slices ![0, 0] S512x64
  slices_S1025x64_S512x64_512_0 : S1025x64.Slices ![512, 0] S512x64
  slices_S1025x64_S1x64_1024_0 : S1025x64.Slices ![1024, 0] S1x64
  shapeCasts_S64_S1x64 : S64.ShapeCasts S1x64
  shapeCasts_S1_S1x1 : S1.ShapeCasts S1x1
  inb_S8000x512_S8000x512_0_0 : ∀ a, (![0, 0] : Fin 2 → Nat) a + S8000x512.size a ≤ S8000x512.size a
  h_S8000x512 : 0 < S8000x512.numel
  shapeCasts_S8000x512_S8000x512 : S8000x512.ShapeCasts S8000x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8000x1_S8000x64 : S8000x1.Broadcasts S8000x64
  broadcasts_S1x64_S8000x64 : S1x64.Broadcasts S8000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  shapeCasts_S160000x1_S160000 : S160000x1.ShapeCasts S160000
  scatter_S10000_S160000x1_S160000_n_0_0_1_wf : ScatterDims.WF S10000 S160000x1 S160000 [] [0] [0] 1
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S2000x512_S512x512_S2000x512_1_0_0_1_n_n_wf : DotDims.WF S2000x512 S512x512 S2000x512 [1] [0] [0] [1] [] []
  dot_S8000x512_S512x64_S8000x64_1_0_0_1_n_n_wf : DotDims.WF S8000x512 S512x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .bf16 = 32 ∨ (Rect.block (s := S10000x512) S2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S10000x512.size a
  hwx0_1 : ∀ i : grid0.Coords, EltTy.bits .bf16 = 32 ∨ (Rect.block (s := S10000x512) S2000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x512.size a ≤ S10000x512.size a
  hwx0_5 : ∀ i : grid0.Coords, EltTy.bits .f32 = 32 ∨ (Rect.block (s := S10000x512) S2000x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S10000x512.size a
  hwx1_0 : ∀ i : grid1.Coords, EltTy.bits .bf16 = 32 ∨ (Rect.block (s := S10000x512) S2000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S10000x512.size a
  hwx1_1 : ∀ i : grid1.Coords, EltTy.bits .bf16 = 32 ∨ (Rect.block (s := S10000x512) S2000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x512.size a ≤ S10000x512.size a
  hwx1_5 : ∀ i : grid1.Coords, EltTy.bits .f32 = 32 ∨ (Rect.block (s := S10000x512) S2000x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x512.size a ≤ S160000x512.size a
  hwx2_0 : ∀ i : grid2.Coords, EltTy.bits .bf16 = 32 ∨ (Rect.block (s := S160000x512) S8000x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x512.size a ≤ S160000x512.size a
  hwx2_1 : ∀ i : grid2.Coords, EltTy.bits .bf16 = 32 ∨ (Rect.block (s := S160000x512) S8000x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x1.size a ≤ S160000x1.size a
  hwx2_2 : ∀ i : grid2.Coords, EltTy.bits .f32 = 32 ∨ (Rect.block (s := S160000x1) S8000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S512x64.size a
  hwx2_3 : ∀ i : grid2.Coords, EltTy.bits .f32 = 32 ∨ (Rect.block (s := S512x64) S512x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512x64.size a ≤ S512x64.size a
  hwx2_4 : ∀ i : grid2.Coords, EltTy.bits .f32 = 32 ∨ (Rect.block (s := S512x64) S512x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x1.size a ≤ S160000x1.size a
  hwx2_9 : ∀ i : grid2.Coords, EltTy.bits .f32 = 32 ∨ (Rect.block (s := S160000x1) S8000x1.size (cc2_transform_9 i) (hinb2_9 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S8000x512_S512x64_S8000x64_1_0_0_1_n_n : DotDims S8000x512 S512x64 S8000x64 where
  lhsContracting := [1]
  rhsContracting := [0]
  lhsNonContracting := [0]
  rhsNonContracting := [1]
  lhsBatch := []
  rhsBatch := []
  wf := dot_S8000x512_S512x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_v28) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v74) S8000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S8000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v70) S8000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v71) S512x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72) S512x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v76) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v77) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v78) S8000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S10000x512 : Shape := ⟨2, ![10000, 512]⟩
abbrev S160000 : Shape := ⟨1, ![160000]⟩
abbrev S512x512 : Shape := ⟨2, ![512, 512]⟩
abbrev S512 : Shape := ⟨1, ![512]⟩
abbrev S1025x64 : Shape := ⟨2, ![1025, 64]⟩
abbrev S64 : Shape := ⟨1, ![64]⟩
abbrev S64x1 : Shape := ⟨2, ![64, 1]⟩
abbrev S1 : Shape := ⟨1, ![1]⟩
abbrev S2x160000 : Shape := ⟨2, ![2, 160000]⟩
abbrev S1x160000 : Shape := ⟨2, ![1, 160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S1x512 : Shape := ⟨2, ![1, 512]⟩
abbrev S160000x1025 : Shape := ⟨2, ![160000, 1025]⟩
abbrev S160000x64 : Shape := ⟨2, ![160000, 64]⟩
abbrev S1x64 : Shape := ⟨2, ![1, 64]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S160000, .f32⟩
  | .hbm, ⟨2, _⟩ => ⟨S160000, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S1025x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S2x160000, .i32⟩
  | .hbm, ⟨14, _⟩ => ⟨S2x160000, .i32⟩
  | .hbm, ⟨15, _⟩ => ⟨S1x160000, .i32⟩
  | .hbm, ⟨16, _⟩ => ⟨S160000, .i32⟩
  | .hbm, ⟨17, _⟩ => ⟨S1x160000, .i32⟩
  | .hbm, ⟨18, _⟩ => ⟨S160000, .i32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S160000x512, .f32⟩
  | .hbm, ⟨28, _⟩ => ⟨S160000x1, .f32⟩
  | .hbm, ⟨29, _⟩ => ⟨S160000x512, .f32⟩
  | .hbm, ⟨30, _⟩ => ⟨S160000x512, .f32⟩
  | .hbm, ⟨31, _⟩ => ⟨S_, .f32⟩
  | .hbm, ⟨32, _⟩ => ⟨S10000x512, .f32⟩
  | .hbm, ⟨33, _⟩ => ⟨S160000x1, .i32⟩
  | .hbm, ⟨34, _⟩ => ⟨S10000x512, .f32⟩
  | .hbm, ⟨35, _⟩ => ⟨S_, .f32⟩
  | .hbm, ⟨36, _⟩ => ⟨S160000, .f32⟩
  | .hbm, ⟨37, _⟩ => ⟨S_, .f32⟩
  | .hbm, ⟨38, _⟩ => ⟨S10000, .f32⟩
  | .hbm, ⟨39, _⟩ => ⟨S160000x1, .i32⟩
  | .hbm, ⟨40, _⟩ => ⟨S10000, .f32⟩
  | .hbm, ⟨41, _⟩ => ⟨S_, .f32⟩
  | .hbm, ⟨42, _⟩ => ⟨S10000, .f32⟩
  | .hbm, ⟨43, _⟩ => ⟨S10000, .f32⟩
  | .hbm, ⟨44, _⟩ => ⟨S10000x1, .f32⟩
  | .hbm, ⟨45, _⟩ => ⟨S10000x512, .f32⟩
  | .hbm, ⟨46, _⟩ => ⟨S10000x512, .f32⟩
  | .hbm, ⟨47, _⟩ => ⟨S10000x512, .f32⟩
  | .hbm, ⟨48, _⟩ => ⟨S1x512, .f32⟩
  | .hbm, ⟨49, _⟩ => ⟨S10000x512, .f32⟩
  | .hbm, ⟨50, _⟩ => ⟨S10000x512, .f32⟩
  | .hbm, ⟨51, _⟩ => ⟨S10000x512, .f32⟩
  | .hbm, ⟨52, _⟩ => ⟨S10000x512, .f32⟩
  | .hbm, ⟨53, _⟩ => ⟨S_, .f32⟩
  | .hbm, ⟨54, _⟩ => ⟨S10000x512, .f32⟩
  | .hbm, ⟨55, _⟩ => ⟨S10000x512, .f32⟩
  | .hbm, ⟨56, _⟩ => ⟨S_, .i32⟩
  | .hbm, ⟨57, _⟩ => ⟨S160000, .i32⟩
  | .hbm, ⟨58, _⟩ => ⟨S160000, .i1⟩
  | .hbm, ⟨59, _⟩ => ⟨S_, .i32⟩
  | .hbm, ⟨60, _⟩ => ⟨S160000, .i32⟩
  | .hbm, ⟨61, _⟩ => ⟨S160000, .i32⟩
  | .hbm, ⟨62, _⟩ => ⟨S160000, .i32⟩
  | .hbm, ⟨63, _⟩ => ⟨S160000x1, .i32⟩
  | .hbm, ⟨64, _⟩ => ⟨S160000x512, .f32⟩
  | .hbm, ⟨65, _⟩ => ⟨S160000x1, .f32⟩
  | .hbm, ⟨66, _⟩ => ⟨S160000x512, .f32⟩
  | .hbm, ⟨67, _⟩ => ⟨S160000x512, .f32⟩
  | .hbm, ⟨68, _⟩ => ⟨S_, .f32⟩
  | .hbm, ⟨69, _⟩ => ⟨S10000x512, .f32⟩
  | .hbm, ⟨70, _⟩ => ⟨S160000x1, .i32⟩
  | .hbm, ⟨71, _⟩ => ⟨S10000x512, .f32⟩
  | .hbm, ⟨72, _⟩ => ⟨S_, .f32⟩
  | .hbm, ⟨73, _⟩ => ⟨S160000, .f32⟩
  | .hbm, ⟨74, _⟩ => ⟨S_, .f32⟩
  | .hbm, ⟨75, _⟩ => ⟨S10000, .f32⟩
  | .hbm, ⟨76, _⟩ => ⟨S160000x1, .i32⟩
  | .hbm, ⟨77, _⟩ => ⟨S10000, .f32⟩
  | .hbm, ⟨78, _⟩ => ⟨S_, .f32⟩
  | .hbm, ⟨79, _⟩ => ⟨S10000, .f32⟩
  | .hbm, ⟨80, _⟩ => ⟨S10000, .f32⟩
  | .hbm, ⟨81, _⟩ => ⟨S10000x1, .f32⟩
  | .hbm, ⟨82, _⟩ => ⟨S10000x512, .f32⟩
  | .hbm, ⟨83, _⟩ => ⟨S10000x512, .f32⟩
  | .hbm, ⟨84, _⟩ => ⟨S10000x512, .f32⟩
  | .hbm, ⟨85, _⟩ => ⟨S1x512, .f32⟩
  | .hbm, ⟨86, _⟩ => ⟨S10000x512, .f32⟩
  | .hbm, ⟨87, _⟩ => ⟨S10000x512, .f32⟩
  | .hbm, ⟨88, _⟩ => ⟨S10000x512, .f32⟩
  | .hbm, ⟨89, _⟩ => ⟨S10000x512, .f32⟩
  | .hbm, ⟨90, _⟩ => ⟨S1x160000, .i32⟩
  | .hbm, ⟨91, _⟩ => ⟨S160000, .i32⟩
  | .hbm, ⟨92, _⟩ => ⟨S_, .i32⟩
  | .hbm, ⟨93, _⟩ => ⟨S160000, .i32⟩
  | .hbm, ⟨94, _⟩ => ⟨S160000, .i1⟩
  | .hbm, ⟨95, _⟩ => ⟨S_, .i32⟩
  | .hbm, ⟨96, _⟩ => ⟨S160000, .i32⟩
  | .hbm, ⟨97, _⟩ => ⟨S160000, .i32⟩
  | .hbm, ⟨98, _⟩ => ⟨S160000, .i32⟩
  | .hbm, ⟨99, _⟩ => ⟨S160000x1, .i32⟩
  | .hbm, ⟨100, _⟩ => ⟨S160000x512, .f32⟩
  | .hbm, ⟨101, _⟩ => ⟨S1x160000, .i32⟩
  | .hbm, ⟨102, _⟩ => ⟨S160000, .i32⟩
  | .hbm, ⟨103, _⟩ => ⟨S_, .i32⟩
  | .hbm, ⟨104, _⟩ => ⟨S160000, .i32⟩
  | .hbm, ⟨105, _⟩ => ⟨S160000, .i1⟩
  | .hbm, ⟨106, _⟩ => ⟨S_, .i32⟩
  | .hbm, ⟨107, _⟩ => ⟨S160000, .i32⟩
  | .hbm, ⟨108, _⟩ => ⟨S160000, .i32⟩
  | .hbm, ⟨109, _⟩ => ⟨S160000, .i32⟩
  | .hbm, ⟨110, _⟩ => ⟨S160000x1, .i32⟩
  | .hbm, ⟨111, _⟩ => ⟨S160000x512, .f32⟩
  | .hbm, ⟨112, _⟩ => ⟨S160000x1, .f32⟩
  | .hbm, ⟨113, _⟩ => ⟨S160000x1025, .f32⟩
  | .hbm, ⟨114, _⟩ => ⟨S160000x64, .f32⟩
  | .hbm, ⟨115, _⟩ => ⟨S1x64, .f32⟩
  | .hbm, ⟨116, _⟩ => ⟨S160000x64, .f32⟩
  | .hbm, ⟨117, _⟩ => ⟨S160000x64, .f32⟩
  | .hbm, ⟨118, _⟩ => ⟨S_, .f32⟩
  | .hbm, ⟨119, _⟩ => ⟨S160000x64, .f32⟩
  | .hbm, ⟨120, _⟩ => ⟨S160000x64, .f32⟩
  | .hbm, ⟨121, _⟩ => ⟨S160000x1, .f32⟩
  | .hbm, ⟨122, _⟩ => ⟨S1x1, .f32⟩
  | .hbm, ⟨123, _⟩ => ⟨S160000x1, .f32⟩
  | .hbm, ⟨124, _⟩ => ⟨S160000x1, .f32⟩
  | .hbm, ⟨125, _⟩ => ⟨S160000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_call0_cst : Ref sig .tc := ⟨.hbm, 53, rfl⟩
abbrev main_call0_v0 : Ref sig .tc := ⟨.hbm, 54, rfl⟩
abbrev main_v32 : Ref sig .tc := ⟨.hbm, 55, rfl⟩
abbrev main_c_4 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_cst_8 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_10 : Ref sig .tc := ⟨.hbm, 92, rfl⟩
abbrev main_v63 : Ref sig .tc := ⟨.hbm, 93, rfl⟩
abbrev main_v64 : Ref sig .tc := ⟨.hbm, 94, rfl⟩
abbrev main_c_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_12 : Ref sig .tc := ⟨.hbm, 103, rfl⟩
abbrev main_v72 : Ref sig .tc := ⟨.hbm, 104, rfl⟩
abbrev main_v73 : Ref sig .tc := ⟨.hbm, 105, rfl⟩
abbrev main_c_13 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call1_cst : Ref sig .tc := ⟨.hbm, 118, rfl⟩
abbrev main_call1_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  concatenates_S160000x512_S160000x512_S160000x1_S160000x1025_d1 : Shape.Concatenates [S160000x512, S160000x512, S160000x1] S160000x1025 1
  bcast_S64_S1x64_1 : S64.BroadcastsInDim S1x64 (![1] : Fin 1 → Fin S1x64.rank)
  bcast_S1x64_S160000x64_0_1 : S1x64.BroadcastsInDim S160000x64 (![0, 1] : Fin 2 → Fin S160000x64.rank)
  bcast_S_S160000x64 : S_.BroadcastsInDim S160000x64 (![] : Fin 0 → Fin S160000x64.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  shapeCasts_S160000x1_S160000 : S160000x1.ShapeCasts S160000
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x512_S10000x512_1_0_0_1_n_n_wf : DotDims.WF S10000x512 S512x512 S10000x512 [1] [0] [0] [1] [] []
  dot_S160000x1025_S1025x64_S160000x64_1_0_0_1_n_n_wf : DotDims.WF S160000x1025 S1025x64 S160000x64 [1] [0] [0] [1] [] []
  dot_S160000x64_S64x1_S160000x1_1_0_0_1_n_n_wf : DotDims.WF S160000x64 S64x1 S160000x1 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S160000x1025_S1025x64_S160000x64_1_0_0_1_n_n : DotDims S160000x1025 S1025x64 S160000x64 where
  lhsContracting := [1]
  rhsContracting := [0]
  lhsNonContracting := [0]
  rhsNonContracting := [1]
  lhsBatch := []
  rhsBatch := []
  wf := dot_S160000x1025_S1025x64_S160000x64_1_0_0_1_n_n_wf
def dot_S160000x64_S64x1_S160000x1_1_0_0_1_n_n : DotDims S160000x64 S64x1 S160000x1 where
  lhsContracting := [1]
  rhsContracting := [0]
  lhsNonContracting := [0]
  rhsNonContracting := [1]
  lhsBatch := []
  rhsBatch := []
  wf := dot_S160000x64_S64x1_S160000x1_1_0_0_1_n_n_wf

class Facts : Prop extends Facts₀ where

variable [Facts]
-- ==== Proof.Spec.lean ====
/-
  The dense pieces of the network as functions of whole arrays, entry by entry, on the extended reals, and the
  small laws that join the two arrangements of the computation.

  One graph-convolution layer combines the averaged neighbour messages `A` and the nodes' own features `X`:
  entry `(p, q)` of the result is `∑ₖ A(p,k)·Wl(k,q) + ∑ₖ X(p,k)·Wr(k,q) + b(q)`, optionally clipped below at `0`.
  The edge decoder scores an edge `e` from the embeddings of its two end nodes and its own weight:
  `h(e,j) = max (∑ₖ Se(e,k)·Wse(k,j) + ∑ₖ De(e,k)·Wde(k,j) + ew(e)·ww(j) + bd1(j)) 0` and the score is
  `∑ⱼ h(e,j)·Wd2(j) + bd2`.

  Two arrangements of this computation meet here. Averaging by "times the reciprocal of the count" against
  "divided by the count": on the extended reals `s · (1 / c) = s / c` whenever `c ≠ 0`, and the count is taken as
  `max count 1`, which is never `0`. And one product over the `1025` joined columns `[Se | De | ew]` against three
  separate pieces: a finite sum split at `512` and `1024`. Neither law needs the entries to be finite: addition and
  multiplication of extended reals are commutative and associative, and nothing is distributed or cancelled.
-/
import Idealize.ShloMosaic.PureOps.Ideal
import Idealize.ShloMosaic.Lib.ValueIdx

noncomputable section

open scoped BigOperators

namespace Cert.GNN.Spec

open Idealize.ShloMosaic Idealize.ShloMosaic.ValueIdx

/-- An `M × N` array of extended reals. -/
abbrev Mat (M N : ℕ) : Type := (⟨2, ![M, N]⟩ : Shape).Idx → EReal

/-- Entry `(p, q)` of one layer's dense half: `A·Wl + X·Wr + b`. -/
def gcE {M K N : ℕ} (A X : Mat M K) (Wl Wr : Mat K N) (b : Mat 1 N) (p : Fin M) (q : Fin N) : EReal :=
  (∑ k : Fin K, A (ix2 p k) * Wl (ix2 k q)) + (∑ k : Fin K, X (ix2 p k) * Wr (ix2 k q)) + b (ix2 0 q)

/-- The layer's dense half as a whole array. -/
def gc {M K N : ℕ} (A X : Mat M K) (Wl Wr : Mat K N) (b : Mat 1 N) : Mat M N :=
  fun i => gcE A X Wl Wr b (i 0) (i 1)

/-- The same, clipped below at zero. -/
def gcRelu {M K N : ℕ} (A X : Mat M K) (Wl Wr : Mat K N) (b : Mat 1 N) : Mat M N :=
  fun i => max (gcE A X Wl Wr b (i 0) (i 1)) 0

/-- The decoder's hidden unit `j` for edge `p`. -/
def decH {M K H : ℕ} (Se De : Mat M K) (ew : Mat M 1) (Wse Wde : Mat K H) (ww bd1 : Mat 1 H) (p : Fin M) (j : Fin H) : EReal :=
  max ((∑ k : Fin K, Se (ix2 p k) * Wse (ix2 k j)) + (∑ k : Fin K, De (ix2 p k) * Wde (ix2 k j))
    + ew (ix2 p 0) * ww (ix2 0 j) + bd1 (ix2 0 j)) 0

/-- The decoder's scores, one per edge, as an `M × 1` array. -/
def dec {M K H : ℕ} (Se De : Mat M K) (ew : Mat M 1) (Wse Wde : Mat K H) (ww bd1 : Mat 1 H) (Wd2 : Mat H 1) (bd2 : Mat 1 1) : Mat M 1 :=
  fun i => (∑ j : Fin H, decH Se De ew Wse Wde ww bd1 (i 0) j * Wd2 (ix2 j 0)) + bd2 (ix2 0 0)

/-- A vector of `N` extended reals. -/
abbrev Vec1 (N : ℕ) : Type := (⟨1, ![N]⟩ : Shape).Idx → EReal

/-- The other arrangement of a layer's dense half at `(p, q)`: the message sums `S` DIVIDED by the clipped count
    `cm`, the bias added before the nodes' own term. -/
def gcRefE {M K N : ℕ} (S X : Mat M K) (cm : Vec1 M) (Wl Wr : Mat K N) (b : Vec1 N) (p : Fin M) (q : Fin N) : EReal :=
  ((∑ k : Fin K, Ideal.div (S (ix2 p k)) (cm (ix1 p)) * Wl (ix2 k q)) + b (ix1 q)) + ∑ k : Fin K, X (ix2 p k) * Wr (ix2 k q)

/-- Column `κ` of edge `e`'s joined row `[g0 | g1 | ew]`. -/
def cat {M : ℕ} (g0 g1 : Mat M 512) (ew : Vec1 M) (e : Fin M) (κ : Fin 1025) : EReal :=
  if h : κ.val < 512 then g0 (ix2 e ⟨κ.val, h⟩)
  else if h' : κ.val < 1024 then g1 (ix2 e ⟨κ.val - 512, by omega⟩) else ew (ix1 e)

/-- The other arrangement of the decoder's hidden unit: ONE product of the joined row with the whole weight array. -/
def decRefH {M : ℕ} (g0 g1 : Mat M 512) (ew : Vec1 M) (W : Mat 1025 64) (bd1 : Vec1 64) (e : Fin M) (j : Fin 64) : EReal :=
  max ((∑ κ : Fin 1025, cat g0 g1 ew e κ * W (ix2 κ j)) + bd1 (ix1 j)) 0

/-- The other arrangement of the decoder's score of edge `e`. -/
def decRef {M : ℕ} (g0 g1 : Mat M 512) (ew : Vec1 M) (W : Mat 1025 64) (bd1 : Vec1 64) (Wd2 : Mat 64 1) (bd2 : Vec1 1) (e : Fin M) : EReal :=
  (∑ j : Fin 64, decRefH g0 g1 ew W bd1 e j * Wd2 (ix2 j 0)) + bd2 (ix1 0)

/-- Multiplying by the reciprocal is dividing, off zero: both are `s · c⁻¹`. -/
theorem mul_one_div (s c : EReal) (hc : c ≠ 0) : s * Ideal.div 1 c = Ideal.div s c := by
  rw [Ideal.div, Ideal.div, if_neg hc, if_neg hc, one_mul]

/-- A count clipped below at one is not zero. -/
theorem max_one_ne_zero (x : EReal) : max x 1 ≠ 0 := by
  have h : (0 : EReal) < max x 1 := lt_of_lt_of_le zero_lt_one (le_max_right x 1)
  exact ne_of_gt h

/-- A sum over the `1025` joined columns is the sum over the first `512`, the next `512`, and the last one. -/
theorem sum_split_1025 (f : Fin 1025 → EReal) :
    (∑ κ : Fin 1025, f κ)
      = (∑ k : Fin 512, f ⟨k.val, by omega⟩) + (∑ k : Fin 512, f ⟨512 + k.val, by omega⟩) + f ⟨1024, by omega⟩ := by
  have h1 := Fin.sum_univ_castSucc (n := 1024) f
  have h2 : (∑ i : Fin 1024, f i.castSucc)
      = (∑ k : Fin 512, f ⟨k.val, by omega⟩) + ∑ k : Fin 512, f ⟨512 + k.val, by omega⟩ :=
    Fin.sum_univ_add (a := 512) (b := 512) (fun i => f ⟨i.val, by have := i.isLt; omega⟩)
  rw [h1, h2]
  rfl

/-- The two arrangements of a layer's dense half agree at `(p, q)`: where the first operand is the message sum times the
    reciprocal of a count that is not zero, and the bias row is the bias vector. -/
theorem gcE_eq_gcRefE {M K N : ℕ} (A S X : Mat M K) (cm : Vec1 M) (Wl Wr : Mat K N) (bk : Mat 1 N) (b : Vec1 N) (p : Fin M) (q : Fin N)
    (hA : ∀ k : Fin K, A (ix2 p k) = S (ix2 p k) * Ideal.div 1 (cm (ix1 p))) (hc : cm (ix1 p) ≠ 0) (hb : bk (ix2 0 q) = b (ix1 q)) :
    gcE A X Wl Wr bk p q = gcRefE S X cm Wl Wr b p q := by
  unfold gcE gcRefE
  have h1 : (∑ k : Fin K, A (ix2 p k) * Wl (ix2 k q)) = ∑ k : Fin K, Ideal.div (S (ix2 p k)) (cm (ix1 p)) * Wl (ix2 k q) :=
    Finset.sum_congr rfl fun k _ => by rw [hA k, mul_one_div _ _ hc]
  rw [h1, hb, add_right_comm]

/-- The two arrangements of the decoder's hidden unit agree: the three pieces of the weight array are its rows
    `0 … 511`, `512 … 1023` and `1024`, and the operands are the joined row's three parts. -/
theorem decH_eq_decRefH {M : ℕ} (Se De : Mat M 512) (ewc : Mat M 1) (Wse Wde : Mat 512 64) (ww b1 : Mat 1 64)
    (g0 g1 : Mat M 512) (ew : Vec1 M) (W : Mat 1025 64) (bd1 : Vec1 64) (e : Fin M) (j : Fin 64)
    (hSe : ∀ k : Fin 512, Se (ix2 e k) = g0 (ix2 e k)) (hDe : ∀ k : Fin 512, De (ix2 e k) = g1 (ix2 e k))
    (hew : ewc (ix2 e 0) = ew (ix1 e))
    (hWse : ∀ k : Fin 512, Wse (ix2 k j) = W (ix2 ⟨k.val, by omega⟩ j))
    (hWde : ∀ k : Fin 512, Wde (ix2 k j) = W (ix2 ⟨512 + k.val, by omega⟩ j))
    (hww : ww (ix2 0 j) = W (ix2 ⟨1024, by omega⟩ j)) (hb : b1 (ix2 0 j) = bd1 (ix1 j)) :
    decH Se De ewc Wse Wde ww b1 e j = decRefH g0 g1 ew W bd1 e j := by
  unfold decH decRefH
  -- the joined row's three parts
  have c0 : ∀ k : Fin 512, cat g0 g1 ew e ⟨k.val, by omega⟩ = g0 (ix2 e k) := fun k => by
    unfold cat
    rw [dif_pos (show ((⟨k.val, by omega⟩ : Fin 1025)).val < 512 from k.isLt)]
  have c1 : ∀ k : Fin 512, cat g0 g1 ew e ⟨512 + k.val, by omega⟩ = g1 (ix2 e k) := fun k => by
    unfold cat
    rw [dif_neg (show ¬ ((⟨512 + k.val, by omega⟩ : Fin 1025)).val < 512 from by show ¬ (512 + k.val < 512); omega),
      dif_pos (show ((⟨512 + k.val, by omega⟩ : Fin 1025)).val < 1024 from by show 512 + k.val < 1024; omega)]
    exact congrArg (fun x => g1 (ix2 e x)) (Fin.ext (by show 512 + k.val - 512 = k.val; omega))
  have c2 : cat g0 g1 ew e ⟨1024, by omega⟩ = ew (ix1 e) := by
    unfold cat
    rw [dif_neg (show ¬ ((⟨1024, by omega⟩ : Fin 1025)).val < 512 from by show ¬ (1024 < 512); omega),
      dif_neg (show ¬ ((⟨1024, by omega⟩ : Fin 1025)).val < 1024 from by show ¬ (1024 < 1024); omega)]
  have s0 : (∑ k : Fin 512, Se (ix2 e k) * Wse (ix2 k j)) = ∑ k : Fin 512, cat g0 g1 ew e ⟨k.val, by omega⟩ * W (ix2 ⟨k.val, by omega⟩ j) :=
    Finset.sum_congr rfl fun k _ => by rw [hSe k, hWse k, c0 k]
  have s1 : (∑ k : Fin 512, De (ix2 e k) * Wde (ix2 k j)) = ∑ k : Fin 512, cat g0 g1 ew e ⟨512 + k.val, by omega⟩ * W (ix2 ⟨512 + k.val, by omega⟩ j) :=
    Finset.sum_congr rfl fun k _ => by rw [hDe k, hWde k, c1 k]
  rw [sum_split_1025 (fun κ => cat g0 g1 ew e κ * W (ix2 κ j)), s0, s1, hew, hww, hb, c2]

end Cert.GNN.Spec

end
-- ==== Proof.KDefs.lean ====
/-
  The kernel program's host side as pure functions of arrays, at the ideal values, and the three dense stages composed
  with them: what the program computes, written once, so that the run and the comparison with the reference are stated
  against the same terms.

  An edge list `ei` has a row of source nodes and a row of destination nodes. A negative node index counts from the end
  (`wrap`). `cnt` counts the edges arriving at each node, `inv` is the reciprocal of that count clipped below at one,
  `msgSum z` adds up, at each node, the rows of `z` at the sources of its incoming edges, each scaled by its edge weight,
  and `agg z` is that sum times `inv`: the mean of the incoming messages. `z1` and `z2` are the two layers, `out` the
  decoder's score of every labelled edge from the rows of `z2` at its two end nodes.
-/
import proofs.«173836_j11828339933535_1_alg».proof.Proof.Gen.KernelIdeal
import proofs.«173836_j11828339933535_1_alg».proof.Proof.Spec

noncomputable section

namespace Cert.GNN.K

open Idealize.ShloMosaic Cert.KernelIdeal Cert.KernelIdeal.Gen

/-- Row `0` of a `2 × E` index array. -/
def row0 (ei : IVec S2x160000 32) : IVec S160000 32 :=
  shapeCast S160000 (extractStridedSlice S1x160000 ![0, 0] ei slices_S2x160000_S1x160000_0_0) shapeCasts_S1x160000_S160000
/-- Row `1` of a `2 × E` index array. -/
def row1 (ei : IVec S2x160000 32) : IVec S160000 32 :=
  shapeCast S160000 (extractStridedSlice S1x160000 ![1, 0] ei slices_S2x160000_S1x160000_1_0) shapeCasts_S1x160000_S160000
/-- A negative node index counts from the end: `r < 0 ↦ r + 10000`. -/
def wrap (r : IVec S160000 32) : IVec S160000 32 :=
  select (cmpi .slt r (broadcastInDim S160000 ![] bcast_S_S160000 (constantI S_ 32 0#32)))
    (addi r (broadcastInDim S160000 ![] bcast_S_S160000 (constantI S_ 32 10000#32))) r
/-- A row of indices as a column of one-entry index vectors. -/
def col (r : IVec S160000 32) : IVec S160000x1 32 := broadcastInDim S160000x1 ![0] bcast_S160000_S160000x1_0 r

/-- How many edges arrive at each node. -/
def cnt (ei : IVec S2x160000 32) : FVec Ideal S10000 .f32 :=
  Host.scatterAdd (F := Ideal) scatter_S10000_S160000x1_S160000_n_0_0_1
    (broadcastInDim S10000 ![] bcast_S_S10000 (constant (F := Ideal) S_ .f32 0x00000000#32))
    (col (row1 ei))
    (broadcastInDim S160000 ![] bcast_S_S160000 (constant (F := Ideal) S_ .f32 0x3F800000#32))
/-- The count clipped below at one. -/
def cmax (ei : IVec S2x160000 32) : FVec Ideal S10000 .f32 :=
  maximumf (cnt ei) (broadcastInDim S10000 ![] bcast_S_S10000 (constant (F := Ideal) S_ .f32 0x3F800000#32))
/-- Its reciprocal. -/
def inv (ei : IVec S2x160000 32) : FVec Ideal S10000 .f32 :=
  Host.divf (F := Ideal) (broadcastInDim S10000 ![] bcast_S_S10000 (constant (F := Ideal) S_ .f32 0x3F800000#32)) (cmax ei)

/-- The rows of `z` at the given nodes. -/
def rows (z : FVec Ideal S10000x512 .f32) (r : IVec S160000 32) : FVec Ideal S160000x512 .f32 :=
  Host.gather gather_S10000x512_S160000x1_S160000x512_1_0_n_n_0_1_1512 z (col (wrap r))

/-- At each node, the sum over its incoming edges of the source's row of `z` times the edge's weight. -/
def msgSum (z : FVec Ideal S10000x512 .f32) (ew : FVec Ideal S160000 .f32) (ei : IVec S2x160000 32) : FVec Ideal S10000x512 .f32 :=
  Host.scatterAdd (F := Ideal) scatter_S10000x512_S160000x1_S160000x512_1_0_0_1
    (broadcastInDim S10000x512 ![] bcast_S_S10000x512 (constant (F := Ideal) S_ .f32 0x00000000#32))
    (col (row1 ei))
    (mulf (rows z (row0 ei))
      (broadcastInDim S160000x512 ![0, 1] bcast_S160000x1_S160000x512_0_1 (broadcastInDim S160000x1 ![0] bcast_S160000_S160000x1_0 ew)))

/-- The mean of the incoming messages, as the first operand of a layer's dense stage. -/
def agg (z : FVec Ideal S10000x512 .f32) (ew : FVec Ideal S160000 .f32) (ei : IVec S2x160000 32) : FVec Ideal S10000x512 .bf16 :=
  truncf .bf16 (mulf (msgSum z ew ei)
    (broadcastInDim S10000x512 ![0, 1] bcast_S10000x1_S10000x512_0_1 (broadcastInDim S10000x1 ![0] bcast_S10000_S10000x1_0 (inv ei)))) bitsLt_bf16_f32

/-- The nodes' own features, as the second operand of a layer's dense stage. -/
def own (z : FVec Ideal S10000x512 .f32) : FVec Ideal S10000x512 .bf16 := truncf .bf16 z bitsLt_bf16_f32

/-- A bias vector as a one-row array. -/
def biasRow (b : FVec Ideal S512 .f32) : FVec Ideal S1x512 .f32 := shapeCast S1x512 b shapeCasts_S512_S1x512

/-- Layer one. -/
def z1 (a0 : FVec Ideal S10000x512 .f32) (a1 : FVec Ideal S160000 .f32) (a3 : FVec Ideal S512x512 .f32) (a4 : FVec Ideal S512 .f32)
    (a5 : FVec Ideal S512x512 .f32) (a13 : IVec S2x160000 32) : FVec Ideal S10000x512 .f32 :=
  Spec.gcRelu (agg a0 a1 a13) (own a0) a3 a5 (biasRow a4)

/-- Layer two, on layer one's result `z`. -/
def z2 (z : FVec Ideal S10000x512 .f32) (a1 : FVec Ideal S160000 .f32) (a6 : FVec Ideal S512x512 .f32) (a7 : FVec Ideal S512 .f32)
    (a8 : FVec Ideal S512x512 .f32) (a13 : IVec S2x160000 32) : FVec Ideal S10000x512 .f32 :=
  Spec.gc (agg z a1 a13) (own z) a6 a8 (biasRow a7)

/-- The decoder's operands that are pieces of the arguments. -/
def ewCol (a2 : FVec Ideal S160000 .f32) : FVec Ideal S160000x1 .f32 := shapeCast S160000x1 a2 shapeCasts_S160000_S160000x1
def wSe (a9 : FVec Ideal S1025x64 .f32) : FVec Ideal S512x64 .f32 := extractStridedSlice S512x64 ![0, 0] a9 slices_S1025x64_S512x64_0_0
def wDe (a9 : FVec Ideal S1025x64 .f32) : FVec Ideal S512x64 .f32 := extractStridedSlice S512x64 ![512, 0] a9 slices_S1025x64_S512x64_512_0
def wW (a9 : FVec Ideal S1025x64 .f32) : FVec Ideal S1x64 .f32 := extractStridedSlice S1x64 ![1024, 0] a9 slices_S1025x64_S1x64_1024_0
def bd1Row (a10 : FVec Ideal S64 .f32) : FVec Ideal S1x64 .f32 := shapeCast S1x64 a10 shapeCasts_S64_S1x64
def bd2Row (a12 : FVec Ideal S1 .f32) : FVec Ideal S1x1 .f32 := shapeCast S1x1 a12 shapeCasts_S1_S1x1
/-- The embeddings of an edge's end nodes, as the decoder's matrix operands. -/
def ends (z : FVec Ideal S10000x512 .f32) (r : IVec S160000 32) : FVec Ideal S160000x512 .bf16 :=
  truncf .bf16 (rows z r) bitsLt_bf16_f32

/-- The decoder on layer two's result `z`, as the column the kernel writes. -/
def scoreCol (z : FVec Ideal S10000x512 .f32) (a2 : FVec Ideal S160000 .f32) (a9 : FVec Ideal S1025x64 .f32) (a10 : FVec Ideal S64 .f32)
    (a11 : FVec Ideal S64x1 .f32) (a12 : FVec Ideal S1 .f32) (a14 : IVec S2x160000 32) : FVec Ideal S160000x1 .f32 :=
  Spec.dec (ends z (row0 a14)) (ends z (row1 a14)) (ewCol a2) (wSe a9) (wDe a9) (wW a9) (bd1Row a10) a11 (bd2Row a12)

/-- The program's result: the score column as a vector. -/
def out (z : FVec Ideal S10000x512 .f32) (a2 : FVec Ideal S160000 .f32) (a9 : FVec Ideal S1025x64 .f32) (a10 : FVec Ideal S64 .f32)
    (a11 : FVec Ideal S64x1 .f32) (a12 : FVec Ideal S1 .f32) (a14 : IVec S2x160000 32) : FVec Ideal S160000 .f32 :=
  shapeCast S160000 (scoreCol z a2 a9 a10 a11 a12 a14) shapeCasts_S160000x1_S160000

end Cert.GNN.K

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.RegionA.lean ====
/-
  The first layer's dense stage, as the array it leaves: whatever the five operand arrays hold when the stage is entered, the result array ends holding `gcRelu` of them, every one of its 10000 × 512 entries written by the one grid point whose block of 2000 rows holds it.
-/
import proofs.«173836_j11828339933535_1_alg».proof.Proof.Gen.KernelIdeal.Frame
import proofs.«173836_j11828339933535_1_alg».proof.Proof.Spec
import proofs.«173836_j11828339933535_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GNN.RegionA

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GNN

/-- The zero offsets of a whole-buffer access, as the constant function. -/
private theorem zero_offsets : (![0, 0] : Fin 2 → Nat) = fun _ => 0 := funext fun a => by fin_cases a <;> rfl

/-- One product of the stage into the zero accumulator, at entry `(p, q)`: the row of the left operand against the column of the right. -/
private theorem product_apply (a : FVec Ideal S2000x512 .bf16) (b : FVec Ideal S512x512 .bf16) (p : Fin 2000) (q : Fin 512) :
    matmul dot_S2000x512_S512x512_S2000x512_1_0_0_1_n_n none a b (constant S2000x512 .f32 0x00000000#32) (ix2 p q)
      = ∑ k : Fin 512, a (ix2 p k) * b (ix2 k q) :=
  matmul_plain_zero_apply none a b p q

/-- What the stage's body computes from its five blocks, at entry `(p, q)` of the block of rows: the two products added, the bias row added, clipped below at zero. -/
private theorem body_apply (x0 x1 : Vec Ideal S2000x512 .bf16) (x2 x4 : Vec Ideal S512x512 .f32) (x3 : Vec Ideal S1x512 .f32)
    (p : Fin 2000) (q : Fin 512) :
    k0_pay1 (F := Ideal) x0 x1 x2 x4 x3 (ix2 p q)
      = max ((∑ k : Fin 512, x0 (ix2 p k) * x2 (ix2 k q)) + (∑ k : Fin 512, x1 (ix2 p k) * x4 (ix2 k q)) + x3 (ix2 0 q)) 0 := by
  unfold k0_pay1
  rw [shapeCast_self, shapeCast_self, shapeCast_self]
  rw [maximumf_apply, addf_apply, addf_apply, product_apply, product_apply, broadcast_apply]
  simp only [truncf_apply]
  rw [broadcastTo_1b_ab_apply]
  exact congrArg (max _) Ideal.ofBits_zero_f32

/-- The stage's result as one function of the five operand arrays as the stage finds them. -/
private abbrev result (V : (c : Dev nD) → (b : Ref sig .tc) → Buf (Elt Ideal) ((c : Thread nD τ).loc b)) (c : Dev nD) : Spec.Mat 10000 512 :=
  Spec.gcRelu (V c main_v28 : Spec.Mat 10000 512) (V c main_v29 : Spec.Mat 10000 512) (V c main_arg3 : Spec.Mat 512 512)
    (V c main_arg5 : Spec.Mat 512 512) (V c main_v30 : Spec.Mat 1 512)

/-- The body's value at `(p, q)` of a block of rows is the whole-array function at `(r, q)`, once the blocks are known to be:
    rows `r` of the two row operands at row `p`, and the two weight arrays and the bias row themselves. -/
private theorem body_eq_result (x0 x1 : Vec Ideal S2000x512 .bf16) (x2 x4 : Vec Ideal S512x512 .f32) (x3 : Vec Ideal S1x512 .f32)
    (A X : Spec.Mat 10000 512) (Wl Wr : Spec.Mat 512 512) (b : Spec.Mat 1 512) (r : Fin 10000) (p : Fin 2000) (q : Fin 512)
    (h0 : ∀ k : Fin 512, x0 (ix2 p k) = A (ix2 r k)) (h1 : ∀ k : Fin 512, x1 (ix2 p k) = X (ix2 r k))
    (h2 : ∀ k : Fin 512, x2 (ix2 k q) = Wl (ix2 k q)) (h4 : ∀ k : Fin 512, x4 (ix2 k q) = Wr (ix2 k q))
    (h3 : x3 (ix2 0 q) = b (ix2 0 q)) :
    k0_pay1 (F := Ideal) x0 x1 x2 x4 x3 (ix2 p q) = Spec.gcRelu A X Wl Wr b (ix2 r q) := by
  rw [body_apply]
  show _ = max (Spec.gcE A X Wl Wr b r q) 0
  unfold Spec.gcE
  simp only [h0, h1, h2, h4, h3]

/-- The printed index maps, decided over the five grid points: the two row operands and the result move together, block row `t` at
    point `t`, always at block column `0`; the weight arrays and the bias row stay at block `(0, 0)`. -/
private theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is its block of rows `2000·t … 2000·t + 1999` of the whole-array function. -/
private theorem flushed_eq (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal) (result V c) := by
  show (cfg0.win 5).cut (grid0.coords t) ((dat0 (F := Ideal) V c).after 5 t) = _
  rw [after0_5]
  unfold out0_5
  rw [View.canon_unit_zero zero_offsets]
  simp only [View.ld_unit_zero (S := S2000x512) zero_offsets, View.ld_unit_zero (S := S512x512) zero_offsets,
    View.ld_unit_zero (S := S1x512) zero_offsets]
  obtain ⟨e00, e01, e10, e11, e20, e21, e30, e31, e40, e41, e50, e51⟩ := index_facts t
  have hN : cfg0.N = 5 := N_0
  have ht : t.val < cfg0.N := t.isLt
  funext j
  obtain ⟨p, q, rfl⟩ : ∃ (p : Fin 2000) (q : Fin 512), j = ix2 p q := ⟨j 0, j 1, eq_ix2 j⟩
  have hp : p.val < 2000 := p.isLt
  have hr : t.val * 2000 + p.val < 10000 := by omega
  refine (body_eq_result (iblk0 V c 0 t) (iblk0 V c 1 t) (iblk0 V c 2 t) (iblk0 V c 4 t) (iblk0 V c 3 t)
    (V c main_v28) (V c main_v29) (V c main_arg3) (V c main_arg5) (V c main_v30) ⟨t.val * 2000 + p.val, hr⟩ p q ?_ ?_ ?_ ?_ ?_).trans ?_
  · intro k
    show V c main_v28 (((cfg0.win 0).blk t).view.emb (ix2 p k)) = V c main_v28 (ix2 ⟨t.val * 2000 + p.val, hr⟩ k)
    refine congrArg (V c main_v28) (funext fun a => Fin.ext ?_)
    match a with
    | ⟨0, _⟩ => show win0_0.index t (0 : Fin 2) * 2000 + 1 * p.val = t.val * 2000 + p.val; omega
    | ⟨1, _⟩ => show win0_0.index t (1 : Fin 2) * 512 + 1 * k.val = k.val; omega
  · intro k
    show V c main_v29 (((cfg0.win 1).blk t).view.emb (ix2 p k)) = V c main_v29 (ix2 ⟨t.val * 2000 + p.val, hr⟩ k)
    refine congrArg (V c main_v29) (funext fun a => Fin.ext ?_)
    match a with
    | ⟨0, _⟩ => show win0_1.index t (0 : Fin 2) * 2000 + 1 * p.val = t.val * 2000 + p.val; omega
    | ⟨1, _⟩ => show win0_1.index t (1 : Fin 2) * 512 + 1 * k.val = k.val; omega
  · intro k
    show V c main_arg3 (((cfg0.win 2).blk t).view.emb (ix2 k q)) = V c main_arg3 (ix2 k q)
    refine congrArg (V c main_arg3) (funext fun a => Fin.ext ?_)
    match a with
    | ⟨0, _⟩ => show win0_2.index t (0 : Fin 2) * 512 + 1 * k.val = k.val; omega
    | ⟨1, _⟩ => show win0_2.index t (1 : Fin 2) * 512 + 1 * q.val = q.val; omega
  · intro k
    show V c main_arg5 (((cfg0.win 4).blk t).view.emb (ix2 k q)) = V c main_arg5 (ix2 k q)
    refine congrArg (V c main_arg5) (funext fun a => Fin.ext ?_)
    match a with
    | ⟨0, _⟩ => show win0_4.index t (0 : Fin 2) * 512 + 1 * k.val = k.val; omega
    | ⟨1, _⟩ => show win0_4.index t (1 : Fin 2) * 512 + 1 * q.val = q.val; omega
  · show V c main_v30 (((cfg0.win 3).blk t).view.emb (ix2 0 q)) = V c main_v30 (ix2 0 q)
    refine congrArg (V c main_v30) (funext fun a => Fin.ext ?_)
    match a with
    | ⟨0, _⟩ => show win0_3.index t (0 : Fin 2) * 1 + 1 * 0 = 0; omega
    | ⟨1, _⟩ => show win0_3.index t (1 : Fin 2) * 512 + 1 * q.val = q.val; omega
  · show result V c (ix2 ⟨t.val * 2000 + p.val, hr⟩ q) = result V c (((cfg0.win 5).blk t).view.emb (ix2 p q))
    refine congrArg (result V c) (funext fun a => Fin.ext ?_)
    match a with
    | ⟨0, _⟩ => show t.val * 2000 + p.val = win0_5.index t (0 : Fin 2) * 2000 + 1 * p.val; omega
    | ⟨1, _⟩ => show q.val = win0_5.index t (1 : Fin 2) * 512 + 1 * q.val; omega

/-- An entry of the result array is in point `t`'s block iff each of its coordinates is in the block's range on that axis. -/
private theorem mem_block (t : Fin cfg0.N) (i : S10000x512.Idx) :
    i ∈ ((cfg0.win 5).blk t).view.set
      ↔ ∀ a : Fin 2, win0_5.index t a * S2000x512.size a ≤ (i a).val ∧ (i a).val < win0_5.index t a * S2000x512.size a + S2000x512.size a := by
  show i ∈ ((View.whole main_v31).slice (win0_5.rect t)).set ↔ _
  rw [View.set_slice_whole, Rect.mem_set_unit]
  exact Iff.rfl

/-- Every entry `(r, q)` of the result array is written by a grid point: the point `r / 2000`, whose block holds rows
    `2000·(r / 2000) … 2000·(r / 2000) + 1999` and all `512` columns. -/
private theorem covered (i : S10000x512.Idx) :
    ∃ t : Fin cfg0.N, (cfg0.win 5).flush t = true ∧ i ∈ ((cfg0.win 5).blk t).view.set := by
  have hN : cfg0.N = 5 := N_0
  have h0 : (i 0).val < 10000 := (i 0).isLt
  have h1 : (i 1).val < 512 := (i 1).isLt
  have hlt : (i 0).val / 2000 < cfg0.N := by omega
  obtain ⟨-, -, -, -, -, -, -, -, -, -, e50, e51⟩ := index_facts ⟨(i 0).val / 2000, hlt⟩
  refine ⟨⟨(i 0).val / 2000, hlt⟩, flush0_5 _, ?_⟩
  rw [mem_block]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, hlt⟩ (1 : Fin 2) * 512 ≤ (i 1).val
      ∧ (i 1).val < win0_5.index ⟨(i 0).val / 2000, hlt⟩ (1 : Fin 2) * 512 + 512
    rw [e51]
    omega

/-- The result array of the first dense stage after its five grid points, as one function of the operand arrays. -/
theorem value (V : (c : Dev nD) → (b : Ref sig .tc) → Buf (Elt Ideal) ((c : Thread nD τ).loc b)) (c : Dev nD) :
    (dat0 (F := Ideal) V c).arrAt 5 cfg0.N
      = (Spec.gcRelu (V c main_v28 : Spec.Mat 10000 512) (V c main_v29 : Spec.Mat 10000 512) (V c main_arg3 : Spec.Mat 512 512)
          (V c main_arg5 : Spec.Mat 512 512) (V c main_v30 : Spec.Mat 1 512) : Spec.Mat 10000 512) :=
  (dat0 (F := Ideal) V c).arrAt_eq_of_cover 5 (result V c) (fun t _ => flushed_eq V c t) covered

end Cert.GNN.RegionA

end
-- ==== Proof.RegionB.lean ====
/-
  The second layer's dense stage, as the array it leaves: whatever the five operand arrays hold when the stage is entered, the result array ends holding `gc` of them (no clipping in this layer), every entry written by the one grid point whose block of 2000 rows holds it.
-/
import proofs.«173836_j11828339933535_1_alg».proof.Proof.Gen.KernelIdeal.Frame
import proofs.«173836_j11828339933535_1_alg».proof.Proof.Spec
import proofs.«173836_j11828339933535_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GNN.RegionB

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GNN

/-- The zero offsets of a whole-buffer access, as the constant function. -/
private theorem zero_offsets : (![0, 0] : Fin 2 → Nat) = fun _ => 0 := funext fun a => by fin_cases a <;> rfl

/-- One product of the stage into the zero accumulator, at entry `(p, q)`: the row of the left operand against the column of the right. -/
private theorem product_apply (a : FVec Ideal S2000x512 .bf16) (b : FVec Ideal S512x512 .bf16) (p : Fin 2000) (q : Fin 512) :
    matmul dot_S2000x512_S512x512_S2000x512_1_0_0_1_n_n none a b (constant S2000x512 .f32 0x00000000#32) (ix2 p q)
      = ∑ k : Fin 512, a (ix2 p k) * b (ix2 k q) :=
  matmul_plain_zero_apply none a b p q

/-- What the stage's body computes from its five blocks, at entry `(p, q)` of the block of rows: the two products added, the bias row added. -/
private theorem body_apply (x0 x1 : Vec Ideal S2000x512 .bf16) (x2 x4 : Vec Ideal S512x512 .f32) (x3 : Vec Ideal S1x512 .f32)
    (p : Fin 2000) (q : Fin 512) :
    k1_pay1 (F := Ideal) x0 x1 x2 x4 x3 (ix2 p q)
      = (∑ k : Fin 512, x0 (ix2 p k) * x2 (ix2 k q)) + (∑ k : Fin 512, x1 (ix2 p k) * x4 (ix2 k q)) + x3 (ix2 0 q) := by
  unfold k1_pay1
  rw [shapeCast_self, shapeCast_self, shapeCast_self]
  rw [addf_apply, addf_apply, product_apply, product_apply]
  simp only [truncf_apply]
  rw [broadcastTo_1b_ab_apply]

/-- The stage's result as one function of the five operand arrays as the stage finds them. -/
private abbrev result (V : (c : Dev nD) → (b : Ref sig .tc) → Buf (Elt Ideal) ((c : Thread nD τ).loc b)) (c : Dev nD) : Spec.Mat 10000 512 :=
  Spec.gc (V c main_v48 : Spec.Mat 10000 512) (V c main_v49 : Spec.Mat 10000 512) (V c main_arg6 : Spec.Mat 512 512)
    (V c main_arg8 : Spec.Mat 512 512) (V c main_v50 : Spec.Mat 1 512)

/-- The body's value at `(p, q)` of a block of rows is the whole-array function at `(r, q)`, once the blocks are known to be:
    rows `r` of the two row operands at row `p`, and the two weight arrays and the bias row themselves. -/
private theorem body_eq_result (x0 x1 : Vec Ideal S2000x512 .bf16) (x2 x4 : Vec Ideal S512x512 .f32) (x3 : Vec Ideal S1x512 .f32)
    (A X : Spec.Mat 10000 512) (Wl Wr : Spec.Mat 512 512) (b : Spec.Mat 1 512) (r : Fin 10000) (p : Fin 2000) (q : Fin 512)
    (h0 : ∀ k : Fin 512, x0 (ix2 p k) = A (ix2 r k)) (h1 : ∀ k : Fin 512, x1 (ix2 p k) = X (ix2 r k))
    (h2 : ∀ k : Fin 512, x2 (ix2 k q) = Wl (ix2 k q)) (h4 : ∀ k : Fin 512, x4 (ix2 k q) = Wr (ix2 k q))
    (h3 : x3 (ix2 0 q) = b (ix2 0 q)) :
    k1_pay1 (F := Ideal) x0 x1 x2 x4 x3 (ix2 p q) = Spec.gc A X Wl Wr b (ix2 r q) := by
  rw [body_apply]
  show _ = Spec.gcE A X Wl Wr b r q
  unfold Spec.gcE
  simp only [h0, h1, h2, h4, h3]

/-- The printed index maps, decided over the five grid points: the two row operands and the result move together, block row `t` at
    point `t`, always at block column `0`; the weight arrays and the bias row stay at block `(0, 0)`. -/
private theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is its block of rows `2000·t … 2000·t + 1999` of the whole-array function. -/
private theorem flushed_eq (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (result V c) := by
  show (cfg1.win 5).cut (grid1.coords t) ((dat1 (F := Ideal) V c).after 5 t) = _
  rw [after1_5]
  unfold out1_5
  rw [View.canon_unit_zero zero_offsets]
  simp only [View.ld_unit_zero (S := S2000x512) zero_offsets, View.ld_unit_zero (S := S512x512) zero_offsets,
    View.ld_unit_zero (S := S1x512) zero_offsets]
  obtain ⟨e00, e01, e10, e11, e20, e21, e30, e31, e40, e41, e50, e51⟩ := index_facts t
  have hN : cfg1.N = 5 := N_1
  have ht : t.val < cfg1.N := t.isLt
  funext j
  obtain ⟨p, q, rfl⟩ : ∃ (p : Fin 2000) (q : Fin 512), j = ix2 p q := ⟨j 0, j 1, eq_ix2 j⟩
  have hp : p.val < 2000 := p.isLt
  have hr : t.val * 2000 + p.val < 10000 := by omega
  refine (body_eq_result (iblk1 V c 0 t) (iblk1 V c 1 t) (iblk1 V c 2 t) (iblk1 V c 4 t) (iblk1 V c 3 t)
    (V c main_v48) (V c main_v49) (V c main_arg6) (V c main_arg8) (V c main_v50) ⟨t.val * 2000 + p.val, hr⟩ p q ?_ ?_ ?_ ?_ ?_).trans ?_
  · intro k
    show V c main_v48 (((cfg1.win 0).blk t).view.emb (ix2 p k)) = V c main_v48 (ix2 ⟨t.val * 2000 + p.val, hr⟩ k)
    refine congrArg (V c main_v48) (funext fun a => Fin.ext ?_)
    match a with
    | ⟨0, _⟩ => show win1_0.index t (0 : Fin 2) * 2000 + 1 * p.val = t.val * 2000 + p.val; omega
    | ⟨1, _⟩ => show win1_0.index t (1 : Fin 2) * 512 + 1 * k.val = k.val; omega
  · intro k
    show V c main_v49 (((cfg1.win 1).blk t).view.emb (ix2 p k)) = V c main_v49 (ix2 ⟨t.val * 2000 + p.val, hr⟩ k)
    refine congrArg (V c main_v49) (funext fun a => Fin.ext ?_)
    match a with
    | ⟨0, _⟩ => show win1_1.index t (0 : Fin 2) * 2000 + 1 * p.val = t.val * 2000 + p.val; omega
    | ⟨1, _⟩ => show win1_1.index t (1 : Fin 2) * 512 + 1 * k.val = k.val; omega
  · intro k
    show V c main_arg6 (((cfg1.win 2).blk t).view.emb (ix2 k q)) = V c main_arg6 (ix2 k q)
    refine congrArg (V c main_arg6) (funext fun a => Fin.ext ?_)
    match a with
    | ⟨0, _⟩ => show win1_2.index t (0 : Fin 2) * 512 + 1 * k.val = k.val; omega
    | ⟨1, _⟩ => show win1_2.index t (1 : Fin 2) * 512 + 1 * q.val = q.val; omega
  · intro k
    show V c main_arg8 (((cfg1.win 4).blk t).view.emb (ix2 k q)) = V c main_arg8 (ix2 k q)
    refine congrArg (V c main_arg8) (funext fun a => Fin.ext ?_)
    match a with
    | ⟨0, _⟩ => show win1_4.index t (0 : Fin 2) * 512 + 1 * k.val = k.val; omega
    | ⟨1, _⟩ => show win1_4.index t (1 : Fin 2) * 512 + 1 * q.val = q.val; omega
  · show V c main_v50 (((cfg1.win 3).blk t).view.emb (ix2 0 q)) = V c main_v50 (ix2 0 q)
    refine congrArg (V c main_v50) (funext fun a => Fin.ext ?_)
    match a with
    | ⟨0, _⟩ => show win1_3.index t (0 : Fin 2) * 1 + 1 * 0 = 0; omega
    | ⟨1, _⟩ => show win1_3.index t (1 : Fin 2) * 512 + 1 * q.val = q.val; omega
  · show result V c (ix2 ⟨t.val * 2000 + p.val, hr⟩ q) = result V c (((cfg1.win 5).blk t).view.emb (ix2 p q))
    refine congrArg (result V c) (funext fun a => Fin.ext ?_)
    match a with
    | ⟨0, _⟩ => show t.val * 2000 + p.val = win1_5.index t (0 : Fin 2) * 2000 + 1 * p.val; omega
    | ⟨1, _⟩ => show q.val = win1_5.index t (1 : Fin 2) * 512 + 1 * q.val; omega

/-- An entry of the result array is in point `t`'s block iff each of its coordinates is in the block's range on that axis. -/
private theorem mem_block (t : Fin cfg1.N) (i : S10000x512.Idx) :
    i ∈ ((cfg1.win 5).blk t).view.set
      ↔ ∀ a : Fin 2, win1_5.index t a * S2000x512.size a ≤ (i a).val ∧ (i a).val < win1_5.index t a * S2000x512.size a + S2000x512.size a := by
  show i ∈ ((View.whole main_v51).slice (win1_5.rect t)).set ↔ _
  rw [View.set_slice_whole, Rect.mem_set_unit]
  exact Iff.rfl

/-- Every entry `(r, q)` of the result array is written by a grid point: the point `r / 2000`, whose block holds rows
    `2000·(r / 2000) … 2000·(r / 2000) + 1999` and all `512` columns. -/
private theorem covered (i : S10000x512.Idx) :
    ∃ t : Fin cfg1.N, (cfg1.win 5).flush t = true ∧ i ∈ ((cfg1.win 5).blk t).view.set := by
  have hN : cfg1.N = 5 := N_1
  have h0 : (i 0).val < 10000 := (i 0).isLt
  have h1 : (i 1).val < 512 := (i 1).isLt
  have hlt : (i 0).val / 2000 < cfg1.N := by omega
  obtain ⟨-, -, -, -, -, -, -, -, -, -, e50, e51⟩ := index_facts ⟨(i 0).val / 2000, hlt⟩
  refine ⟨⟨(i 0).val / 2000, hlt⟩, flush1_5 _, ?_⟩
  rw [mem_block]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, hlt⟩ (1 : Fin 2) * 512 ≤ (i 1).val
      ∧ (i 1).val < win1_5.index ⟨(i 0).val / 2000, hlt⟩ (1 : Fin 2) * 512 + 512
    rw [e51]
    omega

/-- The result array of the second dense stage after its five grid points, as one function of the operand arrays. -/
theorem value (V : (c : Dev nD) → (b : Ref sig .tc) → Buf (Elt Ideal) ((c : Thread nD τ).loc b)) (c : Dev nD) :
    (dat1 (F := Ideal) V c).arrAt 5 cfg1.N
      = (Spec.gc (V c main_v48 : Spec.Mat 10000 512) (V c main_v49 : Spec.Mat 10000 512) (V c main_arg6 : Spec.Mat 512 512)
          (V c main_arg8 : Spec.Mat 512 512) (V c main_v50 : Spec.Mat 1 512) : Spec.Mat 10000 512) :=
  (dat1 (F := Ideal) V c).arrAt_eq_of_cover 5 (result V c) (fun t _ => flushed_eq V c t) covered

end Cert.GNN.RegionB

end
-- ==== Proof.RegionC.lean ====
/-
  The decoder stage, as the array it leaves: whatever the nine operand arrays hold when the stage is entered, the 160000 × 1 result column ends holding `dec` of them, every entry written by the one grid point whose block of 8000 edges holds it.
-/
import proofs.«173836_j11828339933535_1_alg».proof.Proof.Gen.KernelIdeal.Frame
import proofs.«173836_j11828339933535_1_alg».proof.Proof.Spec
import proofs.«173836_j11828339933535_1_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GNN.RegionC

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.GNN

/-- A column spread along the rows: an `a × 1` array broadcast to `a × b` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product of an 8000 × 512 block with a 512 × 64 array into the zero accumulator, at an entry. -/
private theorem mm_wide {φ₁ φ₂ : FTy} (a : FVec Ideal S8000x512 φ₁) (b : FVec Ideal S512x64 φ₂) (p : Fin 8000) (q : Fin 64) :
    matmul dot_S8000x512_S512x64_S8000x64_1_0_0_1_n_n none a b (constant S8000x64 .f32 0x00000000#32) (ix2 p q)
      = ∑ k : Fin 512, a (ix2 p k) * b (ix2 k q) :=
  matmul_plain_zero_apply none a b p q

/-- A product of an 8000 × 64 block with a 64 × 1 column into the zero accumulator, at an entry. -/
private theorem mm_col {φ₁ φ₂ : FTy} (a : FVec Ideal S8000x64 φ₁) (b : FVec Ideal S64x1 φ₂) (p : Fin 8000) (q : Fin 1) :
    matmul dot_S8000x64_S64x1_S8000x1_1_0_0_1_n_n none a b (constant S8000x1 .f32 0x00000000#32) (ix2 p q)
      = ∑ k : Fin 64, a (ix2 p k) * b (ix2 k q) :=
  matmul_plain_zero_apply none a b p q

/-- The body's arithmetic at row `p` of a block, over any contents of the nine operands: the two wide products summed,
    the edge weight times the weight row, the bias row, clipped below at zero, then the product with the output column
    and the output bias. -/
private theorem pay_apply (x0 x1 : Vec Ideal S8000x512 .bf16) (x2 : Vec Ideal S8000x1 .f32) (x3 x4 : Vec Ideal S512x64 .f32)
    (x5 x6 : Vec Ideal S1x64 .f32) (x7 : Vec Ideal S64x1 .f32) (x8 : Vec Ideal S1x1 .f32) (p : Fin 8000) :
    k2_pay1 (F := Ideal) x0 x1 x3 x4 x2 x5 x6 x7 x8 (ix2 p 0)
      = (∑ j : Fin 64, max ((∑ k : Fin 512, x0 (ix2 p k) * x3 (ix2 k j)) + (∑ k : Fin 512, x1 (ix2 p k) * x4 (ix2 k j))
            + x2 (ix2 p 0) * x5 (ix2 0 j) + x6 (ix2 0 j)) 0 * x7 (ix2 j 0)) + x8 (ix2 0 0) := by
  unfold k2_pay1
  refine (addf_apply _ _ _).trans ?_
  refine congrArg₂ (· + ·) ?_ ?_
  · refine (mm_col _ _ p 0).trans ?_
    refine Finset.sum_congr rfl fun j _ => ?_
    simp only [truncf_apply, maximumf_apply, addf_apply, mulf_apply, broadcast_apply]
    refine congrArg₂ (· * ·) (congrArg₂ max ?_ Ideal.ofBits_zero_f32) rfl
    rw [mm_wide, mm_wide, broadcastTo_a1_ab_apply, broadcastTo_1b_ab_apply, broadcastTo_1b_ab_apply]
    simp only [shapeCast_self, truncf_apply]
  · refine (broadcastTo_1b_ab_apply _ _ p 0).trans ?_
    rw [shapeCast_self]

/-! ## From the blocks to the array -/

/-- A whole-block access starts at offset zero on both axes. -/
private theorem zero_offsets : (![0, 0] : Fin 2 → Nat) = fun _ => 0 := funext fun a => by fin_cases a <;> rfl

/-- The decoder's scores as one function of the nine operand arrays as the stage finds them. -/
private abbrev scores (V : (c : Dev nD) → (b : Ref sig .tc) → Buf (Elt Ideal) ((c : Thread nD τ).loc b)) (c : Dev nD) : Spec.Mat 160000 1 :=
  Spec.dec (V c main_v74 : Spec.Mat 160000 512) (V c main_v75 : Spec.Mat 160000 512) (V c main_v70 : Spec.Mat 160000 1)
    (V c main_v71 : Spec.Mat 512 64) (V c main_v72 : Spec.Mat 512 64) (V c main_v73 : Spec.Mat 1 64) (V c main_v76 : Spec.Mat 1 64)
    (V c main_arg11 : Spec.Mat 64 1) (V c main_v77 : Spec.Mat 1 1)

/-- The index maps, decided over the twenty grid points: the two embedding blocks, the edge-weight block and the score
    block sit at block row `t` and block column `0`; the six small operands are whole, at block `(0, 0)`. -/
private theorem block_indices : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0)
    ∧ t.val < 20 :=
  (by decide +kernel : ∀ t : Fin grid2.N, _)

/-- One entry of a block's result is the score of the edge it stands for: the block's rows are the arrays' rows, the six
    small operands the arrays themselves. -/
private theorem block_entry (x0 x1 : Vec Ideal S8000x512 .bf16) (x2 : Vec Ideal S8000x1 .f32) (x3 x4 : Vec Ideal S512x64 .f32)
    (x5 x6 : Vec Ideal S1x64 .f32) (x7 : Vec Ideal S64x1 .f32) (x8 : Vec Ideal S1x1 .f32)
    (Se De : Spec.Mat 160000 512) (ew : Spec.Mat 160000 1) (Wse Wde : Spec.Mat 512 64) (ww bd1 : Spec.Mat 1 64)
    (Wd2 : Spec.Mat 64 1) (bd2 : Spec.Mat 1 1)
    (y : S8000x1.Idx) (i : S160000x1.Idx) (p : Fin 8000) (r : Fin 160000) (hy : y = ix2 p 0) (hi : i = ix2 r 0)
    (h0 : ∀ k : Fin 512, x0 (ix2 p k) = Se (ix2 r k)) (h1 : ∀ k : Fin 512, x1 (ix2 p k) = De (ix2 r k))
    (h2 : x2 (ix2 p 0) = ew (ix2 r 0)) (h3 : x3 = Wse) (h4 : x4 = Wde) (h5 : x5 = ww) (h6 : x6 = bd1) (h7 : x7 = Wd2)
    (h8 : x8 = bd2) :
    k2_pay1 (F := Ideal) x0 x1 x3 x4 x2 x5 x6 x7 x8 y = Spec.dec Se De ew Wse Wde ww bd1 Wd2 bd2 i := by
  subst hy hi h3 h4 h5 h6 h7 h8
  rw [pay_apply]
  show _ = (∑ j : Fin 64, Spec.decH Se De ew x3 x4 x5 x6 r j * x7 (ix2 j 0)) + x8 (ix2 0 0)
  unfold Spec.decH
  simp only [h0, h1, h2]

/-- Row `p` of the first embedding's block at point `t` is row `8000·t + p` of the array. -/
private theorem se_block (V : (c : Dev nD) → (b : Ref sig .tc) → Buf (Elt Ideal) ((c : Thread nD τ).loc b)) (c : Dev nD) (t : Fin cfg2.N) (p : Fin 8000) (k : Fin 512) (r : Fin 160000)
    (hr : r.val = t.val * 8000 + p.val) :
    (iblk2 V c 0 t : Vec Ideal S8000x512 .bf16) (ix2 p k) = V c main_v74 (ix2 r k) := by
  obtain ⟨⟨e0, e1⟩, -, -, -, -, -, -, -, -, -, -⟩ := block_indices t
  show V c main_v74 (((cfg2.win 0).blk t).view.emb (ix2 p k)) = V c main_v74 (ix2 r k)
  refine congrArg (V c main_v74) (funext fun a => Fin.ext ?_)
  match a with
  | ⟨0, _⟩ => show win2_0.index t (0 : Fin 2) * 8000 + 1 * p.val = r.val; omega
  | ⟨1, _⟩ => show win2_0.index t (1 : Fin 2) * 512 + 1 * k.val = k.val; omega

/-- Row `p` of the second embedding's block at point `t` is row `8000·t + p` of the array. -/
private theorem de_block (V : (c : Dev nD) → (b : Ref sig .tc) → Buf (Elt Ideal) ((c : Thread nD τ).loc b)) (c : Dev nD) (t : Fin cfg2.N) (p : Fin 8000) (k : Fin 512) (r : Fin 160000)
    (hr : r.val = t.val * 8000 + p.val) :
    (iblk2 V c 1 t : Vec Ideal S8000x512 .bf16) (ix2 p k) = V c main_v75 (ix2 r k) := by
  obtain ⟨-, ⟨e0, e1⟩, -, -, -, -, -, -, -, -, -⟩ := block_indices t
  show V c main_v75 (((cfg2.win 1).blk t).view.emb (ix2 p k)) = V c main_v75 (ix2 r k)
  refine congrArg (V c main_v75) (funext fun a => Fin.ext ?_)
  match a with
  | ⟨0, _⟩ => show win2_1.index t (0 : Fin 2) * 8000 + 1 * p.val = r.val; omega
  | ⟨1, _⟩ => show win2_1.index t (1 : Fin 2) * 512 + 1 * k.val = k.val; omega

/-- Entry `p` of the edge-weight block at point `t` is entry `8000·t + p` of the column. -/
private theorem ew_block (V : (c : Dev nD) → (b : Ref sig .tc) → Buf (Elt Ideal) ((c : Thread nD τ).loc b)) (c : Dev nD) (t : Fin cfg2.N) (p : Fin 8000) (k : Fin 1) (r : Fin 160000)
    (hr : r.val = t.val * 8000 + p.val) :
    (iblk2 V c 2 t : Vec Ideal S8000x1 .f32) (ix2 p k) = V c main_v70 (ix2 r k) := by
  obtain ⟨-, -, ⟨e0, e1⟩, -, -, -, -, -, -, -, -⟩ := block_indices t
  show V c main_v70 (((cfg2.win 2).blk t).view.emb (ix2 p k)) = V c main_v70 (ix2 r k)
  refine congrArg (V c main_v70) (funext fun a => Fin.ext ?_)
  match a with
  | ⟨0, _⟩ => show win2_2.index t (0 : Fin 2) * 8000 + 1 * p.val = r.val; omega
  | ⟨1, _⟩ => show win2_2.index t (1 : Fin 2) * 1 + 1 * k.val = k.val; omega

/-- The first embedding's weight array is staged whole at every point. -/
private theorem wse_block (V : (c : Dev nD) → (b : Ref sig .tc) → Buf (Elt Ideal) ((c : Thread nD τ).loc b)) (c : Dev nD) (t : Fin cfg2.N) :
    (iblk2 V c 3 t : Vec Ideal S512x64 .f32) = V c main_v71 := by
  obtain ⟨-, -, -, ⟨e0, e1⟩, -, -, -, -, -, -, -⟩ := block_indices t
  funext y
  show V c main_v71 (((cfg2.win 3).blk t).view.emb y) = V c main_v71 y
  refine congrArg (V c main_v71) (funext fun a => Fin.ext ?_)
  match a with
  | ⟨0, _⟩ => show win2_3.index t (0 : Fin 2) * 512 + 1 * (y 0).val = (y 0).val; omega
  | ⟨1, _⟩ => show win2_3.index t (1 : Fin 2) * 64 + 1 * (y 1).val = (y 1).val; omega

/-- The second embedding's weight array is staged whole at every point. -/
private theorem wde_block (V : (c : Dev nD) → (b : Ref sig .tc) → Buf (Elt Ideal) ((c : Thread nD τ).loc b)) (c : Dev nD) (t : Fin cfg2.N) :
    (iblk2 V c 4 t : Vec Ideal S512x64 .f32) = V c main_v72 := by
  obtain ⟨-, -, -, -, ⟨e0, e1⟩, -, -, -, -, -, -⟩ := block_indices t
  funext y
  show V c main_v72 (((cfg2.win 4).blk t).view.emb y) = V c main_v72 y
  refine congrArg (V c main_v72) (funext fun a => Fin.ext ?_)
  match a with
  | ⟨0, _⟩ => show win2_4.index t (0 : Fin 2) * 512 + 1 * (y 0).val = (y 0).val; omega
  | ⟨1, _⟩ => show win2_4.index t (1 : Fin 2) * 64 + 1 * (y 1).val = (y 1).val; omega

/-- The edge weight's weight row is staged whole at every point. -/
private theorem ww_block (V : (c : Dev nD) → (b : Ref sig .tc) → Buf (Elt Ideal) ((c : Thread nD τ).loc b)) (c : Dev nD) (t : Fin cfg2.N) :
    (iblk2 V c 5 t : Vec Ideal S1x64 .f32) = V c main_v73 := by
  obtain ⟨-, -, -, -, -, ⟨e0, e1⟩, -, -, -, -, -⟩ := block_indices t
  funext y
  show V c main_v73 (((cfg2.win 5).blk t).view.emb y) = V c main_v73 y
  refine congrArg (V c main_v73) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- The hidden bias row is staged whole at every point. -/
private theorem bd1_block (V : (c : Dev nD) → (b : Ref sig .tc) → Buf (Elt Ideal) ((c : Thread nD τ).loc b)) (c : Dev nD) (t : Fin cfg2.N) :
    (iblk2 V c 6 t : Vec Ideal S1x64 .f32) = V c main_v76 := by
  obtain ⟨-, -, -, -, -, -, ⟨e0, e1⟩, -, -, -, -⟩ := block_indices t
  funext y
  show V c main_v76 (((cfg2.win 6).blk t).view.emb y) = V c main_v76 y
  refine congrArg (V c main_v76) (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

/-- The output column is staged whole at every point. -/
private theorem wd2_block (V : (c : Dev nD) → (b : Ref sig .tc) → Buf (Elt Ideal) ((c : Thread nD τ).loc b)) (c : Dev nD) (t : Fin cfg2.N) :
    (iblk2 V c 7 t : Vec Ideal S64x1 .f32) = V c main_arg11 := by
  obtain ⟨-, -, -, -, -, -, -, ⟨e0, e1⟩, -, -, -⟩ := block_indices t
  funext y
  show V c main_arg11 (((cfg2.win 7).blk t).view.emb y) = V c main_arg11 y
  refine congrArg (V c main_arg11) (funext fun a => Fin.ext ?_)
  match a with
  | ⟨0, _⟩ => show win2_7.index t (0 : Fin 2) * 64 + 1 * (y 0).val = (y 0).val; omega
  | ⟨1, _⟩ => show win2_7.index t (1 : Fin 2) * 1 + 1 * (y 1).val = (y 1).val; omega

/-- The output bias is staged whole at every point. -/
private theorem bd2_block (V : (c : Dev nD) → (b : Ref sig .tc) → Buf (Elt Ideal) ((c : Thread nD τ).loc b)) (c : Dev nD) (t : Fin cfg2.N) :
    (iblk2 V c 8 t : Vec Ideal S1x1 .f32) = V c main_v77 := by
  obtain ⟨-, -, -, -, -, -, -, -, ⟨e0, e1⟩, -, -⟩ := block_indices t
  funext y
  show V c main_v77 (((cfg2.win 8).blk t).view.emb y) = V c main_v77 y
  refine congrArg (V c main_v77) (funext fun a => Fin.ext ?_)
  match a with
  | ⟨0, _⟩ => show win2_8.index t (0 : Fin 2) * 1 + 1 * (y 0).val = (y 0).val; omega
  | ⟨1, _⟩ => show win2_8.index t (1 : Fin 2) * 1 + 1 * (y 1).val = (y 1).val; omega

/-- What point `t` writes back is block `t` of the scores. -/
private theorem flushed_eq (V : (c : Dev nD) → (b : Ref sig .tc) → Buf (Elt Ideal) ((c : Thread nD τ).loc b)) (c : Dev nD) (t : Fin cfg2.N) :
    (dat2 (F := Ideal) V c).flushed 9 t = ((cfg2.win 9).blk t).view.read (Elt Ideal) (scores V c) := by
  show (cfg2.win 9).cut (grid2.coords t) ((dat2 V c).after 9 t) = _
  rw [after2_9]
  unfold out2_9
  rw [View.canon_unit_zero zero_offsets]
  simp only [View.ld_unit_zero (S := S8000x512) zero_offsets, View.ld_unit_zero (S := S512x64) zero_offsets,
    View.ld_unit_zero (S := S8000x1) zero_offsets, View.ld_unit_zero (S := S1x64) zero_offsets,
    View.ld_unit_zero (S := S64x1) zero_offsets, View.ld_unit_zero (S := S1x1) zero_offsets]
  funext j
  obtain ⟨-, -, -, -, -, -, -, -, -, ⟨e0, e1⟩, ht⟩ := block_indices t
  have hj0 : (j 0).val < 8000 := (j 0).isLt
  have hj1 : (j 1).val < 1 := (j 1).isLt
  show k2_pay1 (F := Ideal) (iblk2 V c 0 t) (iblk2 V c 1 t) (iblk2 V c 3 t) (iblk2 V c 4 t) (iblk2 V c 2 t) (iblk2 V c 5 t)
      (iblk2 V c 6 t) (iblk2 V c 7 t) (iblk2 V c 8 t) ((cfg2.win 9).xinj (grid2.coords t) j)
    = scores V c (((cfg2.win 9).blk t).view.emb j)
  exact block_entry (iblk2 V c 0 t) (iblk2 V c 1 t) (iblk2 V c 2 t) (iblk2 V c 3 t) (iblk2 V c 4 t) (iblk2 V c 5 t)
    (iblk2 V c 6 t) (iblk2 V c 7 t) (iblk2 V c 8 t)
    (V c main_v74) (V c main_v75) (V c main_v70) (V c main_v71) (V c main_v72) (V c main_v73) (V c main_v76)
    (V c main_arg11) (V c main_v77)
    ((cfg2.win 9).xinj (grid2.coords t) j) (((cfg2.win 9).blk t).view.emb j)
    ⟨(j 0).val, hj0⟩ ⟨t.val * 8000 + (j 0).val, by omega⟩
    (funext fun a => Fin.ext (by
      match a with
      | ⟨0, _⟩ => rfl
      | ⟨1, _⟩ => show (j 1).val = 0; omega))
    (funext fun a => Fin.ext (by
      match a with
      | ⟨0, _⟩ => show win2_9.index t (0 : Fin 2) * 8000 + 1 * (j 0).val = t.val * 8000 + (j 0).val; omega
      | ⟨1, _⟩ => show win2_9.index t (1 : Fin 2) * 1 + 1 * (j 1).val = 0; omega))
    (fun k => se_block V c t _ k _ rfl) (fun k => de_block V c t _ k _ rfl) (ew_block V c t _ 0 _ rfl)
    (wse_block V c t) (wde_block V c t) (ww_block V c t) (bd1_block V c t) (wd2_block V c t) (bd2_block V c t)

/-- An index of the score column is in point `t`'s block iff each coordinate is in the block's range on its axis. -/
private theorem mem_blk (t : Fin cfg2.N) (i : S160000x1.Idx) :
    i ∈ ((cfg2.win 9).blk t).view.set ↔ ∀ a : Fin 2, win2_9.index t a * S8000x1.size a ≤ (i a).val
      ∧ (i a).val < win2_9.index t a * S8000x1.size a + S8000x1.size a := by
  show i ∈ ((View.whole main_v78).slice (win2_9.rect t)).set ↔ _
  rw [View.set_slice_whole, Rect.mem_set_unit]
  exact Iff.rfl

/-- Every edge's entry is written: edge `r` by the point `r / 8000`. -/
private theorem covered (i : S160000x1.Idx) :
    ∃ t : Fin cfg2.N, (cfg2.win 9).flush t = true ∧ i ∈ ((cfg2.win 9).blk t).view.set := by
  have hi0 : (i 0).val < 160000 := (i 0).isLt
  have hi1 : (i 1).val < 1 := (i 1).isLt
  have hN : (i 0).val / 8000 < cfg2.N := by show _ < grid2.N; rw [N_2]; omega
  obtain ⟨t, ht⟩ : ∃ t : Fin cfg2.N, t.val = (i 0).val / 8000 := ⟨⟨(i 0).val / 8000, hN⟩, rfl⟩
  obtain ⟨-, -, -, -, -, -, -, -, -, ⟨e0, e1⟩, -⟩ := block_indices t
  refine ⟨t, flush2_9 t, ?_⟩
  rw [mem_blk]
  intro a
  match a with
  | ⟨0, _⟩ =>
    show win2_9.index t (0 : Fin 2) * 8000 ≤ (i 0).val ∧ (i 0).val < win2_9.index t (0 : Fin 2) * 8000 + 8000
    omega
  | ⟨1, _⟩ =>
    show win2_9.index t (1 : Fin 2) * 1 ≤ (i 1).val ∧ (i 1).val < win2_9.index t (1 : Fin 2) * 1 + 1
    omega

/-- The score column after the decoder's twenty grid points, as one function of the operand arrays. -/
theorem value (V : (c : Dev nD) → (b : Ref sig .tc) → Buf (Elt Ideal) ((c : Thread nD τ).loc b)) (c : Dev nD) :
    (dat2 (F := Ideal) V c).arrAt 9 cfg2.N
      = (Spec.dec (V c main_v74 : Spec.Mat 160000 512) (V c main_v75 : Spec.Mat 160000 512) (V c main_v70 : Spec.Mat 160000 1)
          (V c main_v71 : Spec.Mat 512 64) (V c main_v72 : Spec.Mat 512 64) (V c main_v73 : Spec.Mat 1 64) (V c main_v76 : Spec.Mat 1 64)
          (V c main_arg11 : Spec.Mat 64 1) (V c main_v77 : Spec.Mat 1 1) : Spec.Mat 160000 1) :=
  (dat2 (F := Ideal) V c).arrAt_eq_of_cover 9 (scores V c) (fun t _ => flushed_eq V c t) covered

end Cert.GNN.RegionC

end
-- ==== Proof.KernelChain.lean ====
/-
  The program's last boundary, read back: the result buffer holds the decoder's scores of the second layer of the first
  layer of the arguments. Each host stretch is read as the composition of its operations, each dense stage's result
  array by its value lemma, and a buffer no stage and no later operation writes keeps what an earlier stretch left.
-/
import proofs.«173836_j11828339933535_1_alg».proof.Proof.Gen.KernelIdeal.Frame
import proofs.«173836_j11828339933535_1_alg».proof.Proof.KDefs
import proofs.«173836_j11828339933535_1_alg».proof.Proof.RegionA
import proofs.«173836_j11828339933535_1_alg».proof.Proof.RegionB
import proofs.«173836_j11828339933535_1_alg».proof.Proof.RegionC
import Idealize.ShloMosaic.Lib.StableHlo.Run

set_option maxRecDepth 16384

noncomputable section

namespace Cert.GNN.KChain

open Idealize.ShloMosaic Idealize.ShloMosaic.TcCoe Idealize.SL.Sem
open Cert.KernelIdeal Cert.KernelIdeal.Gen Cert.GNN

variable (m : (ℓ : Loc nD τ sig) → Buf (Elt Ideal) ℓ) (ρ : Dev nD → PrngReg)

/-! ## Boundary 1: the first host stretch on the launch contents

The first stretch splits the edge list into its two rows, counts the edges arriving at each node, and forms the mean of
the incoming messages of the node features; no argument is written. -/

private theorem W1_v1 (c : Dev nD) : W1 (F := Ideal) m ρ c (Proc.devRef .tc main_v1) = K.row0 (m ((c.tc : Thread nD τ).loc main_arg13)) := by
  show StableHlo.after hostOps0 _ (Proc.devRef .tc main_v1) = _
  after_results
  rfl

private theorem W1_v3 (c : Dev nD) : W1 (F := Ideal) m ρ c (Proc.devRef .tc main_v3) = K.row1 (m ((c.tc : Thread nD τ).loc main_arg13)) := by
  show StableHlo.after hostOps0 _ (Proc.devRef .tc main_v3) = _
  after_results
  rfl

private theorem W1_v11 (c : Dev nD) : W1 (F := Ideal) m ρ c (Proc.devRef .tc main_v11) = K.inv (m ((c.tc : Thread nD τ).loc main_arg13)) := by
  show StableHlo.after hostOps0 _ (Proc.devRef .tc main_v11) = _
  after_results
  rfl

private theorem W1_v28 (c : Dev nD) : W1 (F := Ideal) m ρ c (Proc.devRef .tc main_v28) = K.agg (m ((c.tc : Thread nD τ).loc main_arg0)) (m ((c.tc : Thread nD τ).loc main_arg1)) (m ((c.tc : Thread nD τ).loc main_arg13)) := by
  show StableHlo.after hostOps0 _ (Proc.devRef .tc main_v28) = _
  after_results_simp
  rfl

private theorem W1_v29 (c : Dev nD) : W1 (F := Ideal) m ρ c (Proc.devRef .tc main_v29) = K.own (m ((c.tc : Thread nD τ).loc main_arg0)) := by
  show StableHlo.after hostOps0 _ (Proc.devRef .tc main_v29) = _
  after_results
  rfl

private theorem W1_v30 (c : Dev nD) : W1 (F := Ideal) m ρ c (Proc.devRef .tc main_v30) = K.biasRow (m ((c.tc : Thread nD τ).loc main_arg4)) := by
  show StableHlo.after hostOps0 _ (Proc.devRef .tc main_v30) = _
  after_results
  rfl

private theorem W1_arg1 (c : Dev nD) : W1 (F := Ideal) m ρ c (Proc.devRef .tc main_arg1) = (m ((c.tc : Thread nD τ).loc main_arg1)) := by
  show StableHlo.after hostOps0 _ (Proc.devRef .tc main_arg1) = _
  after_results

private theorem W1_arg2 (c : Dev nD) : W1 (F := Ideal) m ρ c (Proc.devRef .tc main_arg2) = (m ((c.tc : Thread nD τ).loc main_arg2)) := by
  show StableHlo.after hostOps0 _ (Proc.devRef .tc main_arg2) = _
  after_results

private theorem W1_arg3 (c : Dev nD) : W1 (F := Ideal) m ρ c (Proc.devRef .tc main_arg3) = (m ((c.tc : Thread nD τ).loc main_arg3)) := by
  show StableHlo.after hostOps0 _ (Proc.devRef .tc main_arg3) = _
  after_results

private theorem W1_arg5 (c : Dev nD) : W1 (F := Ideal) m ρ c (Proc.devRef .tc main_arg5) = (m ((c.tc : Thread nD τ).loc main_arg5)) := by
  show StableHlo.after hostOps0 _ (Proc.devRef .tc main_arg5) = _
  after_results

private theorem W1_arg6 (c : Dev nD) : W1 (F := Ideal) m ρ c (Proc.devRef .tc main_arg6) = (m ((c.tc : Thread nD τ).loc main_arg6)) := by
  show StableHlo.after hostOps0 _ (Proc.devRef .tc main_arg6) = _
  after_results

private theorem W1_arg7 (c : Dev nD) : W1 (F := Ideal) m ρ c (Proc.devRef .tc main_arg7) = (m ((c.tc : Thread nD τ).loc main_arg7)) := by
  show StableHlo.after hostOps0 _ (Proc.devRef .tc main_arg7) = _
  after_results

private theorem W1_arg8 (c : Dev nD) : W1 (F := Ideal) m ρ c (Proc.devRef .tc main_arg8) = (m ((c.tc : Thread nD τ).loc main_arg8)) := by
  show StableHlo.after hostOps0 _ (Proc.devRef .tc main_arg8) = _
  after_results

private theorem W1_arg9 (c : Dev nD) : W1 (F := Ideal) m ρ c (Proc.devRef .tc main_arg9) = (m ((c.tc : Thread nD τ).loc main_arg9)) := by
  show StableHlo.after hostOps0 _ (Proc.devRef .tc main_arg9) = _
  after_results

private theorem W1_arg10 (c : Dev nD) : W1 (F := Ideal) m ρ c (Proc.devRef .tc main_arg10) = (m ((c.tc : Thread nD τ).loc main_arg10)) := by
  show StableHlo.after hostOps0 _ (Proc.devRef .tc main_arg10) = _
  after_results

private theorem W1_arg11 (c : Dev nD) : W1 (F := Ideal) m ρ c (Proc.devRef .tc main_arg11) = (m ((c.tc : Thread nD τ).loc main_arg11)) := by
  show StableHlo.after hostOps0 _ (Proc.devRef .tc main_arg11) = _
  after_results

private theorem W1_arg12 (c : Dev nD) : W1 (F := Ideal) m ρ c (Proc.devRef .tc main_arg12) = (m ((c.tc : Thread nD τ).loc main_arg12)) := by
  show StableHlo.after hostOps0 _ (Proc.devRef .tc main_arg12) = _
  after_results

private theorem W1_arg14 (c : Dev nD) : W1 (F := Ideal) m ρ c (Proc.devRef .tc main_arg14) = (m ((c.tc : Thread nD τ).loc main_arg14)) := by
  show StableHlo.after hostOps0 _ (Proc.devRef .tc main_arg14) = _
  after_results

/-! ## Boundary 2: the first dense stage

Its result array is layer one of the arguments; every other buffer is as the stage found it. -/

private theorem W2_v31 (c : Dev nD) : W2 (F := Ideal) m ρ c (Proc.devRef .tc main_v31) = K.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg13)) := by
  refine ((W2_arr (F := Ideal) m ρ c 5).trans (RegionA.value (V1 m ρ) c)).trans ?_
  show Spec.gcRelu (W1 (F := Ideal) m ρ c (Proc.devRef .tc main_v28)) (W1 (F := Ideal) m ρ c (Proc.devRef .tc main_v29)) (W1 (F := Ideal) m ρ c (Proc.devRef .tc main_arg3)) (W1 (F := Ideal) m ρ c (Proc.devRef .tc main_arg5)) (W1 (F := Ideal) m ρ c (Proc.devRef .tc main_v30)) = _
  rw [W1_v28 m ρ c, W1_v29 m ρ c, W1_arg3 m ρ c, W1_arg5 m ρ c, W1_v30 m ρ c]
  rfl

private theorem W2_v1 (c : Dev nD) : W2 (F := Ideal) m ρ c (Proc.devRef .tc main_v1) = K.row0 (m ((c.tc : Thread nD τ).loc main_arg13)) :=
  (W2_of_ne m ρ c main_v1 (by decide)).trans (W1_v1 m ρ c)

private theorem W2_v3 (c : Dev nD) : W2 (F := Ideal) m ρ c (Proc.devRef .tc main_v3) = K.row1 (m ((c.tc : Thread nD τ).loc main_arg13)) :=
  (W2_of_ne m ρ c main_v3 (by decide)).trans (W1_v3 m ρ c)

private theorem W2_v11 (c : Dev nD) : W2 (F := Ideal) m ρ c (Proc.devRef .tc main_v11) = K.inv (m ((c.tc : Thread nD τ).loc main_arg13)) :=
  (W2_of_ne m ρ c main_v11 (by decide)).trans (W1_v11 m ρ c)

private theorem W2_arg1 (c : Dev nD) : W2 (F := Ideal) m ρ c (Proc.devRef .tc main_arg1) = (m ((c.tc : Thread nD τ).loc main_arg1)) :=
  (W2_of_ne m ρ c main_arg1 (by decide)).trans (W1_arg1 m ρ c)

private theorem W2_arg2 (c : Dev nD) : W2 (F := Ideal) m ρ c (Proc.devRef .tc main_arg2) = (m ((c.tc : Thread nD τ).loc main_arg2)) :=
  (W2_of_ne m ρ c main_arg2 (by decide)).trans (W1_arg2 m ρ c)

private theorem W2_arg6 (c : Dev nD) : W2 (F := Ideal) m ρ c (Proc.devRef .tc main_arg6) = (m ((c.tc : Thread nD τ).loc main_arg6)) :=
  (W2_of_ne m ρ c main_arg6 (by decide)).trans (W1_arg6 m ρ c)

private theorem W2_arg7 (c : Dev nD) : W2 (F := Ideal) m ρ c (Proc.devRef .tc main_arg7) = (m ((c.tc : Thread nD τ).loc main_arg7)) :=
  (W2_of_ne m ρ c main_arg7 (by decide)).trans (W1_arg7 m ρ c)

private theorem W2_arg8 (c : Dev nD) : W2 (F := Ideal) m ρ c (Proc.devRef .tc main_arg8) = (m ((c.tc : Thread nD τ).loc main_arg8)) :=
  (W2_of_ne m ρ c main_arg8 (by decide)).trans (W1_arg8 m ρ c)

private theorem W2_arg9 (c : Dev nD) : W2 (F := Ideal) m ρ c (Proc.devRef .tc main_arg9) = (m ((c.tc : Thread nD τ).loc main_arg9)) :=
  (W2_of_ne m ρ c main_arg9 (by decide)).trans (W1_arg9 m ρ c)

private theorem W2_arg10 (c : Dev nD) : W2 (F := Ideal) m ρ c (Proc.devRef .tc main_arg10) = (m ((c.tc : Thread nD τ).loc main_arg10)) :=
  (W2_of_ne m ρ c main_arg10 (by decide)).trans (W1_arg10 m ρ c)

private theorem W2_arg11 (c : Dev nD) : W2 (F := Ideal) m ρ c (Proc.devRef .tc main_arg11) = (m ((c.tc : Thread nD τ).loc main_arg11)) :=
  (W2_of_ne m ρ c main_arg11 (by decide)).trans (W1_arg11 m ρ c)

private theorem W2_arg12 (c : Dev nD) : W2 (F := Ideal) m ρ c (Proc.devRef .tc main_arg12) = (m ((c.tc : Thread nD τ).loc main_arg12)) :=
  (W2_of_ne m ρ c main_arg12 (by decide)).trans (W1_arg12 m ρ c)

private theorem W2_arg14 (c : Dev nD) : W2 (F := Ideal) m ρ c (Proc.devRef .tc main_arg14) = (m ((c.tc : Thread nD τ).loc main_arg14)) :=
  (W2_of_ne m ρ c main_arg14 (by decide)).trans (W1_arg14 m ρ c)

/-! ## Boundary 3: the second host stretch

The same mean of incoming messages, now of layer one's result, with the rows, the reciprocal counts and the edge weights
that the first stretch left. -/

private theorem W3_v48 (c : Dev nD) : W3 (F := Ideal) m ρ c (Proc.devRef .tc main_v48) = K.agg (K.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg13))) (m ((c.tc : Thread nD τ).loc main_arg1)) (m ((c.tc : Thread nD τ).loc main_arg13)) := by
  show StableHlo.after hostOps1 _ (Proc.devRef .tc main_v48) = _
  after_results_simp
  rw [W2_v31 m ρ c, W2_v1 m ρ c, W2_v3 m ρ c, W2_v11 m ρ c, W2_arg1 m ρ c]
  rfl

private theorem W3_v49 (c : Dev nD) : W3 (F := Ideal) m ρ c (Proc.devRef .tc main_v49) = K.own (K.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg13))) := by
  show StableHlo.after hostOps1 _ (Proc.devRef .tc main_v49) = _
  after_results
  rw [W2_v31 m ρ c]
  rfl

private theorem W3_v50 (c : Dev nD) : W3 (F := Ideal) m ρ c (Proc.devRef .tc main_v50) = K.biasRow (m ((c.tc : Thread nD τ).loc main_arg7)) := by
  show StableHlo.after hostOps1 _ (Proc.devRef .tc main_v50) = _
  after_results
  rw [W2_arg7 m ρ c]
  rfl

private theorem W3_arg2 (c : Dev nD) : W3 (F := Ideal) m ρ c (Proc.devRef .tc main_arg2) = (m ((c.tc : Thread nD τ).loc main_arg2)) := by
  show StableHlo.after hostOps1 _ (Proc.devRef .tc main_arg2) = _
  after_results
  exact W2_arg2 m ρ c

private theorem W3_arg6 (c : Dev nD) : W3 (F := Ideal) m ρ c (Proc.devRef .tc main_arg6) = (m ((c.tc : Thread nD τ).loc main_arg6)) := by
  show StableHlo.after hostOps1 _ (Proc.devRef .tc main_arg6) = _
  after_results
  exact W2_arg6 m ρ c

private theorem W3_arg8 (c : Dev nD) : W3 (F := Ideal) m ρ c (Proc.devRef .tc main_arg8) = (m ((c.tc : Thread nD τ).loc main_arg8)) := by
  show StableHlo.after hostOps1 _ (Proc.devRef .tc main_arg8) = _
  after_results
  exact W2_arg8 m ρ c

private theorem W3_arg9 (c : Dev nD) : W3 (F := Ideal) m ρ c (Proc.devRef .tc main_arg9) = (m ((c.tc : Thread nD τ).loc main_arg9)) := by
  show StableHlo.after hostOps1 _ (Proc.devRef .tc main_arg9) = _
  after_results
  exact W2_arg9 m ρ c

private theorem W3_arg10 (c : Dev nD) : W3 (F := Ideal) m ρ c (Proc.devRef .tc main_arg10) = (m ((c.tc : Thread nD τ).loc main_arg10)) := by
  show StableHlo.after hostOps1 _ (Proc.devRef .tc main_arg10) = _
  after_results
  exact W2_arg10 m ρ c

private theorem W3_arg11 (c : Dev nD) : W3 (F := Ideal) m ρ c (Proc.devRef .tc main_arg11) = (m ((c.tc : Thread nD τ).loc main_arg11)) := by
  show StableHlo.after hostOps1 _ (Proc.devRef .tc main_arg11) = _
  after_results
  exact W2_arg11 m ρ c

private theorem W3_arg12 (c : Dev nD) : W3 (F := Ideal) m ρ c (Proc.devRef .tc main_arg12) = (m ((c.tc : Thread nD τ).loc main_arg12)) := by
  show StableHlo.after hostOps1 _ (Proc.devRef .tc main_arg12) = _
  after_results
  exact W2_arg12 m ρ c

private theorem W3_arg14 (c : Dev nD) : W3 (F := Ideal) m ρ c (Proc.devRef .tc main_arg14) = (m ((c.tc : Thread nD τ).loc main_arg14)) := by
  show StableHlo.after hostOps1 _ (Proc.devRef .tc main_arg14) = _
  after_results
  exact W2_arg14 m ρ c

/-! ## Boundary 4: the second dense stage -/

private theorem W4_v51 (c : Dev nD) : W4 (F := Ideal) m ρ c (Proc.devRef .tc main_v51) = K.z2 (K.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg13))) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg13)) := by
  refine ((W4_arr (F := Ideal) m ρ c 5).trans (RegionB.value (V3 m ρ) c)).trans ?_
  show Spec.gc (W3 (F := Ideal) m ρ c (Proc.devRef .tc main_v48)) (W3 (F := Ideal) m ρ c (Proc.devRef .tc main_v49)) (W3 (F := Ideal) m ρ c (Proc.devRef .tc main_arg6)) (W3 (F := Ideal) m ρ c (Proc.devRef .tc main_arg8)) (W3 (F := Ideal) m ρ c (Proc.devRef .tc main_v50)) = _
  rw [W3_v48 m ρ c, W3_v49 m ρ c, W3_arg6 m ρ c, W3_arg8 m ρ c, W3_v50 m ρ c]
  rfl

private theorem W4_arg2 (c : Dev nD) : W4 (F := Ideal) m ρ c (Proc.devRef .tc main_arg2) = (m ((c.tc : Thread nD τ).loc main_arg2)) :=
  (W4_of_ne m ρ c main_arg2 (by decide)).trans (W3_arg2 m ρ c)

private theorem W4_arg9 (c : Dev nD) : W4 (F := Ideal) m ρ c (Proc.devRef .tc main_arg9) = (m ((c.tc : Thread nD τ).loc main_arg9)) :=
  (W4_of_ne m ρ c main_arg9 (by decide)).trans (W3_arg9 m ρ c)

private theorem W4_arg10 (c : Dev nD) : W4 (F := Ideal) m ρ c (Proc.devRef .tc main_arg10) = (m ((c.tc : Thread nD τ).loc main_arg10)) :=
  (W4_of_ne m ρ c main_arg10 (by decide)).trans (W3_arg10 m ρ c)

private theorem W4_arg11 (c : Dev nD) : W4 (F := Ideal) m ρ c (Proc.devRef .tc main_arg11) = (m ((c.tc : Thread nD τ).loc main_arg11)) :=
  (W4_of_ne m ρ c main_arg11 (by decide)).trans (W3_arg11 m ρ c)

private theorem W4_arg12 (c : Dev nD) : W4 (F := Ideal) m ρ c (Proc.devRef .tc main_arg12) = (m ((c.tc : Thread nD τ).loc main_arg12)) :=
  (W4_of_ne m ρ c main_arg12 (by decide)).trans (W3_arg12 m ρ c)

private theorem W4_arg14 (c : Dev nD) : W4 (F := Ideal) m ρ c (Proc.devRef .tc main_arg14) = (m ((c.tc : Thread nD τ).loc main_arg14)) :=
  (W4_of_ne m ρ c main_arg14 (by decide)).trans (W3_arg14 m ρ c)

/-! ## Boundary 5: the third host stretch

The rows of layer two's result at the two end nodes of every labelled edge, and the decoder's weights cut out of the
arguments. -/

private theorem W5_v74 (c : Dev nD) : W5 (F := Ideal) m ρ c (Proc.devRef .tc main_v74) = K.ends (K.z2 (K.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg13))) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg13))) (K.row0 (m ((c.tc : Thread nD τ).loc main_arg14))) := by
  show StableHlo.after hostOps2 _ (Proc.devRef .tc main_v74) = _
  after_results_simp
  rw [W4_v51 m ρ c, W4_arg14 m ρ c]
  rfl

private theorem W5_v75 (c : Dev nD) : W5 (F := Ideal) m ρ c (Proc.devRef .tc main_v75) = K.ends (K.z2 (K.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg13))) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg13))) (K.row1 (m ((c.tc : Thread nD τ).loc main_arg14))) := by
  show StableHlo.after hostOps2 _ (Proc.devRef .tc main_v75) = _
  after_results_simp
  rw [W4_v51 m ρ c, W4_arg14 m ρ c]
  rfl

private theorem W5_v70 (c : Dev nD) : W5 (F := Ideal) m ρ c (Proc.devRef .tc main_v70) = K.ewCol (m ((c.tc : Thread nD τ).loc main_arg2)) := by
  show StableHlo.after hostOps2 _ (Proc.devRef .tc main_v70) = _
  after_results
  rw [W4_arg2 m ρ c]
  rfl

private theorem W5_v71 (c : Dev nD) : W5 (F := Ideal) m ρ c (Proc.devRef .tc main_v71) = K.wSe (m ((c.tc : Thread nD τ).loc main_arg9)) := by
  show StableHlo.after hostOps2 _ (Proc.devRef .tc main_v71) = _
  after_results
  rw [W4_arg9 m ρ c]
  rfl

private theorem W5_v72 (c : Dev nD) : W5 (F := Ideal) m ρ c (Proc.devRef .tc main_v72) = K.wDe (m ((c.tc : Thread nD τ).loc main_arg9)) := by
  show StableHlo.after hostOps2 _ (Proc.devRef .tc main_v72) = _
  after_results
  rw [W4_arg9 m ρ c]
  rfl

private theorem W5_v73 (c : Dev nD) : W5 (F := Ideal) m ρ c (Proc.devRef .tc main_v73) = K.wW (m ((c.tc : Thread nD τ).loc main_arg9)) := by
  show StableHlo.after hostOps2 _ (Proc.devRef .tc main_v73) = _
  after_results
  rw [W4_arg9 m ρ c]
  rfl

private theorem W5_v76 (c : Dev nD) : W5 (F := Ideal) m ρ c (Proc.devRef .tc main_v76) = K.bd1Row (m ((c.tc : Thread nD τ).loc main_arg10)) := by
  show StableHlo.after hostOps2 _ (Proc.devRef .tc main_v76) = _
  after_results
  rw [W4_arg10 m ρ c]
  rfl

private theorem W5_arg11 (c : Dev nD) : W5 (F := Ideal) m ρ c (Proc.devRef .tc main_arg11) = (m ((c.tc : Thread nD τ).loc main_arg11)) := by
  show StableHlo.after hostOps2 _ (Proc.devRef .tc main_arg11) = _
  after_results
  exact W4_arg11 m ρ c

private theorem W5_v77 (c : Dev nD) : W5 (F := Ideal) m ρ c (Proc.devRef .tc main_v77) = K.bd2Row (m ((c.tc : Thread nD τ).loc main_arg12)) := by
  show StableHlo.after hostOps2 _ (Proc.devRef .tc main_v77) = _
  after_results
  rw [W4_arg12 m ρ c]
  rfl

/-! ## Boundary 6: the decoder stage -/

private theorem W6_v78 (c : Dev nD) : W6 (F := Ideal) m ρ c (Proc.devRef .tc main_v78) = K.scoreCol (K.z2 (K.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg13))) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg13))) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg14)) := by
  refine ((W6_arr (F := Ideal) m ρ c 9).trans (RegionC.value (V5 m ρ) c)).trans ?_
  show Spec.dec (W5 (F := Ideal) m ρ c (Proc.devRef .tc main_v74)) (W5 (F := Ideal) m ρ c (Proc.devRef .tc main_v75)) (W5 (F := Ideal) m ρ c (Proc.devRef .tc main_v70)) (W5 (F := Ideal) m ρ c (Proc.devRef .tc main_v71)) (W5 (F := Ideal) m ρ c (Proc.devRef .tc main_v72)) (W5 (F := Ideal) m ρ c (Proc.devRef .tc main_v73)) (W5 (F := Ideal) m ρ c (Proc.devRef .tc main_v76)) (W5 (F := Ideal) m ρ c (Proc.devRef .tc main_arg11)) (W5 (F := Ideal) m ρ c (Proc.devRef .tc main_v77)) = _
  rw [W5_v74 m ρ c, W5_v75 m ρ c, W5_v70 m ρ c, W5_v71 m ρ c, W5_v72 m ρ c, W5_v73 m ρ c, W5_v76 m ρ c, W5_arg11 m ρ c, W5_v77 m ρ c]
  rfl

/-! ## Boundary 7: the last host stretch, one reshape of the score column -/

/-- The result buffer at the last boundary is the program's function of the launch contents of the arguments. -/
theorem value (c : Dev nD) :
    W7 (F := Ideal) m ρ c (Proc.devRef .tc main_v79)
      = K.out (K.z2 (K.z1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg13)))
            (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg13)))
          (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg14)) := by
  show StableHlo.after hostOps3 _ (Proc.devRef .tc main_v79) = _
  after_results
  rw [W6_v78 m ρ c]
  rfl

end Cert.GNN.KChain

end
-- ==== Proof.KRead.lean ====
/-
  The kernel program's host operations read at an entry: a change of float format is the identity on the extended
  reals, a broadcast repeats an entry, a slice and a reshape move it.
-/
import proofs.«173836_j11828339933535_1_alg».proof.Proof.KDefs
import Idealize.ShloMosaic.Lib.Pipeline.Value
import Idealize.ShloMosaic.Lib.ValueIdx
import Idealize.ShloMosaic.Lib.ValueLayout

noncomputable section

namespace Cert.GNN.KRead

open Idealize.ShloMosaic Idealize.ShloMosaic.ValueIdx Cert.KernelIdeal Cert.KernelIdeal.Gen Cert.GNN

/-- The pattern `0x3F800000` has sign `+`, exponent field `127` (the bias) and fraction `0`: it denotes the real number one. -/
private theorem ofBits_one : Ideal.ofBits .f32 0x3F800000#32 = 1 := by
  simp [Ideal.ofBits, Ideal.ieee, -EReal.coe_mul]; norm_num

/-- The clipped count at node `p` is the larger of the count and one. -/
private theorem cmax_eq (ei : IVec S2x160000 32) (p : Fin 10000) :
    (K.cmax ei : Spec.Vec1 10000) (ix1 p) = max ((K.cnt ei : Spec.Vec1 10000) (ix1 p)) 1 := by
  show max ((K.cnt ei : Spec.Vec1 10000) (ix1 p)) (Ideal.ofBits .f32 0x3F800000#32) = _
  rw [ofBits_one]

/-- The reciprocal at node `p` is one divided by the clipped count there. -/
private theorem inv_apply (ei : IVec S2x160000 32) (p : Fin 10000) :
    (K.inv ei : Spec.Vec1 10000) (ix1 p) = Ideal.div 1 ((K.cmax ei : Spec.Vec1 10000) (ix1 p)) := by
  show FloatOps.hostDivf (F := Ideal) (Ideal.ofBits .f32 0x3F800000#32) ((K.cmax ei : Spec.Vec1 10000) (ix1 p)) = _
  rw [Ideal.hostDivf_def, ofBits_one]

/-- A vector of `10000` entries laid out as a column: entry `(p, 0)` is entry `p`. -/
private theorem col10000_apply (v : Spec.Vec1 10000) (p : Fin 10000) :
    (broadcastInDim S10000x1 ![0] bcast_S10000_S10000x1_0 v : Spec.Mat 10000 1) (ix2 p 0) = v (ix1 p) :=
  broadcastInDim_apply _ bcast_S10000_S10000x1_0 v (ix2 p 0) (ix1 p) (fun a => match a with
    | ⟨0, _⟩ => by show p.val = if (10000 : Nat) = 1 then 0 else p.val; rw [if_neg (by decide)])

/-- A column of `10000` entries repeated along `512` columns: entry `(p, k)` is the column's entry `(p, 0)`. -/
private theorem rep10000x512_apply (c : Spec.Mat 10000 1) (p : Fin 10000) (k : Fin 512) :
    (broadcastInDim S10000x512 ![0, 1] bcast_S10000x1_S10000x512_0_1 c : Spec.Mat 10000 512) (ix2 p k) = c (ix2 p 0) :=
  broadcastInDim_apply _ bcast_S10000x1_S10000x512_0_1 c (ix2 p k) (ix2 p 0) (fun a => match a with
    | ⟨0, _⟩ => by show p.val = if (10000 : Nat) = 1 then 0 else p.val; rw [if_neg (by decide)]
    | ⟨1, _⟩ => by show 0 = if (1 : Nat) = 1 then 0 else k.val; rw [if_pos rfl])

/-- The mean of the incoming messages at `(p, k)`: the message sum times the reciprocal of node `p`'s clipped count. -/
theorem agg_apply (z : FVec Ideal S10000x512 .f32) (ew : FVec Ideal S160000 .f32) (ei : IVec S2x160000 32) (p : Fin 10000) (k : Fin 512) :
    (K.agg z ew ei : Spec.Mat 10000 512) (ix2 p k) = (K.msgSum z ew ei : Spec.Mat 10000 512) (ix2 p k) * Ideal.div 1 ((K.cmax ei : Spec.Vec1 10000) (ix1 p)) := by
  show (K.msgSum z ew ei : Spec.Mat 10000 512) (ix2 p k)
      * (broadcastInDim S10000x512 ![0, 1] bcast_S10000x1_S10000x512_0_1
          (broadcastInDim S10000x1 ![0] bcast_S10000_S10000x1_0 (K.inv ei)) : Spec.Mat 10000 512) (ix2 p k) = _
  rw [rep10000x512_apply, col10000_apply, inv_apply]
/-- The clipped count is not zero. -/
theorem cmax_ne_zero (ei : IVec S2x160000 32) (p : Fin 10000) : (K.cmax ei : Spec.Vec1 10000) (ix1 p) ≠ 0 := by
  rw [cmax_eq]
  exact Spec.max_one_ne_zero _
theorem own_apply (z : FVec Ideal S10000x512 .f32) (i : S10000x512.Idx) : K.own z i = z i := rfl
theorem biasRow_apply (b : FVec Ideal S512 .f32) (q : Fin 512) : (K.biasRow b : Spec.Mat 1 512) (ix2 0 q) = (b : Spec.Vec1 512) (ix1 q) :=
  shapeCast_a_1a_apply b shapeCasts_S512_S1x512 0 q
theorem ends_apply (z : FVec Ideal S10000x512 .f32) (r : IVec S160000 32) (i : S160000x512.Idx) : K.ends z r i = K.rows z r i := rfl
theorem ewCol_apply (a2 : FVec Ideal S160000 .f32) (e : Fin 160000) : (K.ewCol a2 : Spec.Mat 160000 1) (ix2 e 0) = (a2 : Spec.Vec1 160000) (ix1 e) :=
  shapeCast_apply a2 shapeCasts_S160000_S160000x1 (ix2 e 0) (ix1 e) (by
    rw [Shape.rowMajor_val_one, Shape.rowMajor_val_two]
    show e.val = e.val * 1 + 0
    omega)
theorem wSe_apply (a9 : FVec Ideal S1025x64 .f32) (k : Fin 512) (j : Fin 64) :
    (K.wSe a9 : Spec.Mat 512 64) (ix2 k j) = (a9 : Spec.Mat 1025 64) (ix2 ⟨k.val, by omega⟩ j) :=
  slice2_axis0_apply 0 a9 slices_S1025x64_S512x64_0_0 k j ⟨k.val, by omega⟩ (Nat.zero_add _).symm
theorem wDe_apply (a9 : FVec Ideal S1025x64 .f32) (k : Fin 512) (j : Fin 64) :
    (K.wDe a9 : Spec.Mat 512 64) (ix2 k j) = (a9 : Spec.Mat 1025 64) (ix2 ⟨512 + k.val, by omega⟩ j) :=
  slice2_axis0_apply 512 a9 slices_S1025x64_S512x64_512_0 k j ⟨512 + k.val, by omega⟩ rfl
theorem wW_apply (a9 : FVec Ideal S1025x64 .f32) (j : Fin 64) :
    (K.wW a9 : Spec.Mat 1 64) (ix2 0 j) = (a9 : Spec.Mat 1025 64) (ix2 ⟨1024, by omega⟩ j) :=
  slice2_axis0_apply 1024 a9 slices_S1025x64_S1x64_1024_0 0 j ⟨1024, by omega⟩ rfl
theorem bd1Row_apply (a10 : FVec Ideal S64 .f32) (j : Fin 64) : (K.bd1Row a10 : Spec.Mat 1 64) (ix2 0 j) = (a10 : Spec.Vec1 64) (ix1 j) :=
  shapeCast_a_1a_apply a10 shapeCasts_S64_S1x64 0 j
theorem bd2Row_apply (a12 : FVec Ideal S1 .f32) : (K.bd2Row a12 : Spec.Mat 1 1) (ix2 0 0) = (a12 : Spec.Vec1 1) (ix1 0) :=
  shapeCast_a_1a_apply a12 shapeCasts_S1_S1x1 0 0
/-- The result vector's entry `e` is the score column's entry `(e, 0)`. -/
theorem out_apply (z : FVec Ideal S10000x512 .f32) (a2 : FVec Ideal S160000 .f32) (a9 : FVec Ideal S1025x64 .f32) (a10 : FVec Ideal S64 .f32)
    (a11 : FVec Ideal S64x1 .f32) (a12 : FVec Ideal S1 .f32) (a14 : IVec S2x160000 32) (e : Fin 160000) :
    (K.out z a2 a9 a10 a11 a12 a14 : Spec.Vec1 160000) (ix1 e) = (K.scoreCol z a2 a9 a10 a11 a12 a14 : Spec.Mat 160000 1) (ix2 e 0) :=
  shapeCast_apply (K.scoreCol z a2 a9 a10 a11 a12 a14) shapeCasts_S160000x1_S160000 (ix1 e) (ix2 e 0) (by
    rw [Shape.rowMajor_val_two, Shape.rowMajor_val_one]
    show e.val * 1 + 0 = e.val
    omega)

end Cert.GNN.KRead

end
-- ==== Proof.RefSide.lean ====
/-
  The reference network's three stages read entry by entry at the ideal values, each as the reference's arrangement of
  the stage (`Spec.gcRefE`, `Spec.decRef`) of the arrays the stage is applied to; the gathers and the scatter sums are
  carried as the arrays they are, never opened.
-/
import proofs.«173836_j11828339933535_1_alg».proof.Proof.Gen.ReferenceIdeal.Run
import proofs.«173836_j11828339933535_1_alg».proof.Proof.Gen.ReferenceIdeal.Read
import proofs.«173836_j11828339933535_1_alg».proof.Proof.Spec
import proofs.«173836_j11828339933535_1_alg».proof.Proof.LibDot
import Idealize.ShloMosaic.Lib.Pipeline.Value
import Idealize.ShloMosaic.Lib.ValueIdx

noncomputable section

namespace Cert.GNN.RefSide

open Idealize.ShloMosaic Idealize.ShloMosaic.ValueIdx Cert.ReferenceIdeal Cert.ReferenceIdeal.Read Cert.GNN

variable (x0 : FVec Ideal S10000x512 .f32) (x1 x2 : FVec Ideal S160000 .f32) (x3 : FVec Ideal S512x512 .f32) (x4 : FVec Ideal S512 .f32)
    (x5 x6 : FVec Ideal S512x512 .f32) (x7 : FVec Ideal S512 .f32) (x8 : FVec Ideal S512x512 .f32) (x9 : FVec Ideal S1025x64 .f32) (x10 : FVec Ideal S64 .f32)
    (x11 : FVec Ideal S64x1 .f32) (x12 : FVec Ideal S1 .f32) (x13 x14 : IVec S2x160000 32)

/-- Column `κ` of row `e` of three arrays joined along the columns: the first array's column `κ` below `512`, the
    second's column `κ − 512` below `1024`, the third's only column at `1024`. -/
private theorem joined_entry (g0 g1 : (⟨2, ![160000, 512]⟩ : Shape).Idx → EReal) (c : (⟨2, ![160000, 1]⟩ : Shape).Idx → EReal)
    (h : Shape.Concatenates [(⟨2, ![160000, 512]⟩ : Shape), ⟨2, ![160000, 512]⟩, ⟨2, ![160000, 1]⟩] ⟨2, ![160000, 1025]⟩ 1)
    (e : Fin 160000) (κ : Fin 1025) :
    concatenate (⟨2, ![160000, 1025]⟩ : Shape) 1 [⟨⟨2, ![160000, 512]⟩, g0⟩, ⟨⟨2, ![160000, 512]⟩, g1⟩, ⟨⟨2, ![160000, 1]⟩, c⟩] h (ix2 e κ)
      = if h1 : κ.val < 512 then g0 (ix2 e ⟨κ.val, h1⟩)
        else if h2 : κ.val < 1024 then g1 (ix2 e ⟨κ.val - 512, by omega⟩) else c (ix2 e 0) := by
  by_cases h1 : κ.val < 512
  · rw [dif_pos h1]
    refine concatenate_apply_piece 1 [⟨⟨2, ![160000, 512]⟩, g0⟩, ⟨⟨2, ![160000, 512]⟩, g1⟩, ⟨⟨2, ![160000, 1]⟩, c⟩] h (ix2 e κ) 0 (by show (0 : Nat) < 3; omega) _ g0 rfl rfl 0 rfl
      (ix2 e ⟨κ.val, h1⟩) ?_ ?_
    · intro b hb
      match b with
      | ⟨0, _⟩ => rfl
      | ⟨1, _⟩ => exact absurd rfl hb
    · show 0 + κ.val = κ.val
      omega
  · rw [dif_neg h1]
    by_cases h2 : κ.val < 1024
    · rw [dif_pos h2]
      refine concatenate_apply_piece 1 [⟨⟨2, ![160000, 512]⟩, g0⟩, ⟨⟨2, ![160000, 512]⟩, g1⟩, ⟨⟨2, ![160000, 1]⟩, c⟩] h (ix2 e κ) 1 (by show (1 : Nat) < 3; omega) _ g1 rfl rfl 512 rfl
        (ix2 e ⟨κ.val - 512, by omega⟩) ?_ ?_
      · intro b hb
        match b with
        | ⟨0, _⟩ => rfl
        | ⟨1, _⟩ => exact absurd rfl hb
      · show 512 + (κ.val - 512) = κ.val
        omega
    · rw [dif_neg h2]
      refine concatenate_apply_piece 1 [⟨⟨2, ![160000, 512]⟩, g0⟩, ⟨⟨2, ![160000, 512]⟩, g1⟩, ⟨⟨2, ![160000, 1]⟩, c⟩] h (ix2 e κ) 2 (by show (2 : Nat) < 3; omega) _ c rfl rfl 1024 rfl
        (ix2 e 0) ?_ ?_
      · intro b hb
        match b with
        | ⟨0, _⟩ => rfl
        | ⟨1, _⟩ => exact absurd rfl hb
      · show 1024 + 0 = κ.val
        have := κ.isLt
        omega

/-- The reference's joined row `[source embedding | destination embedding | edge weight]` at `(e, κ)` is `Spec.cat`
    of the two gathered arrays and the weight vector. -/
private theorem cat_entry (e : Fin 160000) (κ : Fin 1025) :
    val_main_v80 (F := Ideal) x0 x1 x2 x3 x4 x5 x6 x7 x8 x13 x14 (ix2 e κ)
      = Spec.cat (val_main_v69 (F := Ideal) x0 x1 x3 x4 x5 x6 x7 x8 x13 x14 : Spec.Mat 160000 512)
          (val_main_v78 (F := Ideal) x0 x1 x3 x4 x5 x6 x7 x8 x13 x14 : Spec.Mat 160000 512) (x2 : Spec.Vec1 160000) e κ := by
  have hc : val_main_v79 (F := Ideal) x2 (ix2 e 0) = x2 (ix1 e) := by
    rw [val_main_v79_apply]
    exact congrArg x2 (funext fun a => Fin.ext (by match a with | ⟨0, _⟩ => rfl))
  unfold val_main_v80 Spec.cat
  generalize val_main_v69 (F := Ideal) x0 x1 x3 x4 x5 x6 x7 x8 x13 x14 = g0
  generalize val_main_v78 (F := Ideal) x0 x1 x3 x4 x5 x6 x7 x8 x13 x14 = g1
  refine (joined_entry g0 g1 (val_main_v79 (F := Ideal) x2) _ e κ).trans ?_
  rw [hc]

/-- Layer one of the reference. -/
theorem layer1 :
    (val_main_v32 (F := Ideal) x0 x1 x3 x4 x5 x13 : Spec.Mat 10000 512)
      = fun i => max (Spec.gcRefE (val_main_v16 (F := Ideal) x0 x1 x13 : Spec.Mat 10000 512) (x0 : Spec.Mat 10000 512)
          (val_main_v22 (F := Ideal) x13 : Spec.Vec1 10000) (x3 : Spec.Mat 512 512) (x5 : Spec.Mat 512 512) (x4 : Spec.Vec1 512) (i 0) (i 1)) 0 := by
  funext i
  obtain ⟨p, q, rfl⟩ : ∃ (p : Fin 10000) (q : Fin 512), i = ix2 p q := ⟨i 0, i 1, eq_ix2 i⟩
  -- the composed index maps of the stage, at `(p, q)` and contraction index `k`
  have el : ∀ k : Fin 512, lidx_main_v26 (ix2 p q) k = ix2 p k := fun k =>
    funext fun a => Fin.ext (by match a with | ⟨0, _⟩ => rfl | ⟨1, _⟩ => rfl)
  have er : ∀ k : Fin 512, ridx_main_v26 (ix2 p q) k = ix2 k q := fun k =>
    funext fun a => Fin.ext (by match a with | ⟨0, _⟩ => rfl | ⟨1, _⟩ => rfl)
  have el' : ∀ k : Fin 512, lidx_main_v30 (ix2 p q) k = ix2 p k := fun k =>
    funext fun a => Fin.ext (by match a with | ⟨0, _⟩ => rfl | ⟨1, _⟩ => rfl)
  have er' : ∀ k : Fin 512, ridx_main_v30 (ix2 p q) k = ix2 k q := fun k =>
    funext fun a => Fin.ext (by match a with | ⟨0, _⟩ => rfl | ⟨1, _⟩ => rfl)
  have ec : ∀ k : Fin 512, idx_main_v23 (idx_main_v24 (ix2 p k)) = ix1 p := fun k =>
    funext fun a => Fin.ext (by match a with | ⟨0, _⟩ => rfl)
  have eb : idx_main_v27 (idx_main_v28 (ix2 p q)) = ix1 q :=
    funext fun a => Fin.ext (by match a with | ⟨0, _⟩ => rfl)
  show val_main_v32 (F := Ideal) x0 x1 x3 x4 x5 x13 (ix2 p q) = max (Spec.gcRefE _ _ _ _ _ _ p q) 0
  rw [val_main_v32_apply, val_main_v31_apply, val_main_v29_apply, val_main_v26_apply, val_main_v28_apply, val_main_v27_apply,
    val_main_v30_apply, val_main_call0_v0_apply, val_main_call0_cst_apply]
  unfold Spec.gcRefE
  simp only [el, er, el', er', val_main_v25_apply, val_main_v24_apply, val_main_v23_apply, ec, eb, Ideal.hostDivf_def,
    Ideal.addf_def, Ideal.maximumf_def, Ideal.ofBits_def, Ideal.ofBits_zero_f32]

/-- Layer two of the reference, on layer one's result. -/
theorem layer2 :
    (val_main_v60 (F := Ideal) x0 x1 x3 x4 x5 x6 x7 x8 x13 : Spec.Mat 10000 512)
      = fun i => Spec.gcRefE (val_main_v45 (F := Ideal) x0 x1 x3 x4 x5 x13 : Spec.Mat 10000 512)
          (val_main_v32 (F := Ideal) x0 x1 x3 x4 x5 x13 : Spec.Mat 10000 512)
          (val_main_v51 (F := Ideal) x13 : Spec.Vec1 10000) (x6 : Spec.Mat 512 512) (x8 : Spec.Mat 512 512) (x7 : Spec.Vec1 512) (i 0) (i 1) := by
  funext i
  obtain ⟨p, q, rfl⟩ : ∃ (p : Fin 10000) (q : Fin 512), i = ix2 p q := ⟨i 0, i 1, eq_ix2 i⟩
  have el : ∀ k : Fin 512, lidx_main_v55 (ix2 p q) k = ix2 p k := fun k =>
    funext fun a => Fin.ext (by match a with | ⟨0, _⟩ => rfl | ⟨1, _⟩ => rfl)
  have er : ∀ k : Fin 512, ridx_main_v55 (ix2 p q) k = ix2 k q := fun k =>
    funext fun a => Fin.ext (by match a with | ⟨0, _⟩ => rfl | ⟨1, _⟩ => rfl)
  have el' : ∀ k : Fin 512, lidx_main_v59 (ix2 p q) k = ix2 p k := fun k =>
    funext fun a => Fin.ext (by match a with | ⟨0, _⟩ => rfl | ⟨1, _⟩ => rfl)
  have er' : ∀ k : Fin 512, ridx_main_v59 (ix2 p q) k = ix2 k q := fun k =>
    funext fun a => Fin.ext (by match a with | ⟨0, _⟩ => rfl | ⟨1, _⟩ => rfl)
  have ec : ∀ k : Fin 512, idx_main_v52 (idx_main_v53 (ix2 p k)) = ix1 p := fun k =>
    funext fun a => Fin.ext (by match a with | ⟨0, _⟩ => rfl)
  have eb : idx_main_v56 (idx_main_v57 (ix2 p q)) = ix1 q :=
    funext fun a => Fin.ext (by match a with | ⟨0, _⟩ => rfl)
  show val_main_v60 (F := Ideal) x0 x1 x3 x4 x5 x6 x7 x8 x13 (ix2 p q) = Spec.gcRefE _ _ _ _ _ _ p q
  rw [val_main_v60_apply, val_main_v58_apply, val_main_v55_apply, val_main_v57_apply, val_main_v56_apply, val_main_v59_apply]
  unfold Spec.gcRefE
  simp only [el, er, el', er', val_main_v54_apply, val_main_v53_apply, val_main_v52_apply, ec, eb, Ideal.hostDivf_def,
    Ideal.addf_def]

/-- The reference's scores. -/
theorem scores :
    (val_main_v90 (F := Ideal) x0 x1 x2 x3 x4 x5 x6 x7 x8 x9 x10 x11 x12 x13 x14 : Spec.Vec1 160000)
      = fun i => Spec.decRef (val_main_v69 (F := Ideal) x0 x1 x3 x4 x5 x6 x7 x8 x13 x14 : Spec.Mat 160000 512)
          (val_main_v78 (F := Ideal) x0 x1 x3 x4 x5 x6 x7 x8 x13 x14 : Spec.Mat 160000 512)
          (x2 : Spec.Vec1 160000) (x9 : Spec.Mat 1025 64) (x10 : Spec.Vec1 64) (x11 : Spec.Mat 64 1) (x12 : Spec.Vec1 1) (i 0) := by
  funext i
  obtain ⟨e, rfl⟩ : ∃ e : Fin 160000, i = ix1 e := ⟨i 0, eq_ix1 i⟩
  -- the reshape from one column to a vector reads row `e`, column `0`
  have e90 : idx_main_v90 (ix1 e) = ix2 e 0 :=
    funext fun a => Fin.ext (by
      match a with
      | ⟨0, _⟩ => show e.val / 1 = e.val; exact Nat.div_one _
      | ⟨1, _⟩ => rfl)
  have el : ∀ j : Fin 64, lidx_main_v86 (ix2 e 0) j = ix2 e j := fun j =>
    funext fun a => Fin.ext (by match a with | ⟨0, _⟩ => rfl | ⟨1, _⟩ => rfl)
  have er : ∀ j : Fin 64, ridx_main_v86 (ix2 e 0) j = ix2 j 0 := fun j =>
    funext fun a => Fin.ext (by match a with | ⟨0, _⟩ => rfl | ⟨1, _⟩ => rfl)
  have el' : ∀ (j : Fin 64) (κ : Fin 1025), lidx_main_v81 (ix2 e j) κ = ix2 e κ := fun j κ =>
    funext fun a => Fin.ext (by match a with | ⟨0, _⟩ => rfl | ⟨1, _⟩ => rfl)
  have er' : ∀ (j : Fin 64) (κ : Fin 1025), ridx_main_v81 (ix2 e j) κ = ix2 κ j := fun j κ =>
    funext fun a => Fin.ext (by match a with | ⟨0, _⟩ => rfl | ⟨1, _⟩ => rfl)
  have eb1 : ∀ j : Fin 64, idx_main_v82 (idx_main_v83 (ix2 e j)) = ix1 j := fun j =>
    funext fun a => Fin.ext (by match a with | ⟨0, _⟩ => rfl)
  have eb2 : idx_main_v87 (idx_main_v88 (ix2 e 0)) = ix1 0 :=
    funext fun a => Fin.ext (by match a with | ⟨0, _⟩ => rfl)
  show val_main_v90 (F := Ideal) x0 x1 x2 x3 x4 x5 x6 x7 x8 x9 x10 x11 x12 x13 x14 (ix1 e) = Spec.decRef _ _ _ _ _ _ _ e
  rw [val_main_v90_apply, e90, val_main_v89_apply, val_main_v86_apply, val_main_v88_apply, val_main_v87_apply, eb2]
  unfold Spec.decRef Spec.decRefH
  simp only [el, er, val_main_v85_apply, val_main_v84_apply, val_main_v81_apply, el', er', cat_entry, val_main_v83_apply,
    val_main_v82_apply, eb1, val_main_call1_v0_apply, val_main_call1_cst_apply, Ideal.addf_def, Ideal.maximumf_def,
    Ideal.ofBits_def, Ideal.ofBits_zero_f32]

end Cert.GNN.RefSide

end
-- ==== Proof.Bridge.lean ====
/-
  The kernel program's function of the arguments is the reference's, stage by stage.

  Both programs gather, scale and scatter-add the same rows with the same indices, so the message sums, the clipped
  counts and the gathered end-node rows are THE SAME arrays on both sides once the arrays they are taken from agree:
  they are carried whole and never opened. What differs is the arrangement of each dense stage, and `Spec` joins the
  two arrangements entry by entry: the mean as "times the reciprocal of the clipped count" against "divided by the
  clipped count" (equal because the clipped count is not zero), the bias added last against added before the nodes'
  own term (addition of extended reals is commutative and associative), and the decoder's three partial products
  against one product over the joined row (a finite sum split at 512 and 1024).
-/
import proofs.«173836_j11828339933535_1_alg».proof.Proof.KDefs
import proofs.«173836_j11828339933535_1_alg».proof.Proof.KRead
import proofs.«173836_j11828339933535_1_alg».proof.Proof.RefSide

noncomputable section

namespace Cert.GNN.Bridge

open Idealize.ShloMosaic Idealize.ShloMosaic.ValueIdx Cert.GNN
open Cert.ReferenceIdeal.Read

variable (x0 : Spec.Mat 10000 512) (x1 x2 : Spec.Vec1 160000) (x3 : Spec.Mat 512 512) (x4 : Spec.Vec1 512)
  (x5 x6 : Spec.Mat 512 512) (x7 : Spec.Vec1 512) (x8 : Spec.Mat 512 512) (x9 : Spec.Mat 1025 64) (x10 : Spec.Vec1 64)
  (x11 : Spec.Mat 64 1) (x12 : Spec.Vec1 1) (x13 x14 : (⟨2, ![2, 160000]⟩ : Shape).Idx → BitVec 32)

/-! ## The shared arrays: one term on both sides -/

/-- Layer one's message sums. -/
theorem msgSum1 : K.msgSum x0 x1 x13 = val_main_v16 (F := Ideal) x0 x1 x13 := rfl
/-- The clipped counts, as layer one of the reference computes them. -/
theorem cmax1 : K.cmax x13 = val_main_v22 (F := Ideal) x13 := rfl
/-- Layer two's message sums, of the reference's layer one. -/
theorem msgSum2 : K.msgSum (val_main_v32 (F := Ideal) x0 x1 x3 x4 x5 x13) x1 x13 = val_main_v45 (F := Ideal) x0 x1 x3 x4 x5 x13 := rfl
/-- The clipped counts, as layer two of the reference computes them again. -/
theorem cmax2 : K.cmax x13 = val_main_v51 (F := Ideal) x13 := rfl
/-- The rows of the reference's layer two at the labelled edges' first end nodes. -/
theorem rows0 : K.rows (val_main_v60 (F := Ideal) x0 x1 x3 x4 x5 x6 x7 x8 x13) (K.row0 x14) = val_main_v69 (F := Ideal) x0 x1 x3 x4 x5 x6 x7 x8 x13 x14 := rfl
/-- … and at their second end nodes. -/
theorem rows1 : K.rows (val_main_v60 (F := Ideal) x0 x1 x3 x4 x5 x6 x7 x8 x13) (K.row1 x14) = val_main_v78 (F := Ideal) x0 x1 x3 x4 x5 x6 x7 x8 x13 x14 := rfl

/-- The nodes' own features enter a layer's dense stage unchanged. -/
theorem own_eq (z : Spec.Mat 10000 512) : (K.own z : Spec.Mat 10000 512) = z := funext (KRead.own_apply z)

/-! ## Layer by layer -/

/-- Layer one. -/
theorem z1_eq : K.z1 x0 x1 x3 x4 x5 x13 = val_main_v32 (F := Ideal) x0 x1 x3 x4 x5 x13 := by
  rw [RefSide.layer1, ← msgSum1, ← cmax1]
  funext i
  show max (Spec.gcE (K.agg x0 x1 x13) (K.own x0) x3 x5 (K.biasRow x4) (i 0) (i 1)) 0 = _
  rw [own_eq]
  exact congrArg (fun t => max t 0)
    (Spec.gcE_eq_gcRefE (K.agg x0 x1 x13) (K.msgSum x0 x1 x13) x0 (K.cmax x13) x3 x5 (K.biasRow x4) x4 (i 0) (i 1)
      (fun k => KRead.agg_apply x0 x1 x13 (i 0) k) (KRead.cmax_ne_zero x13 (i 0)) (KRead.biasRow_apply x4 (i 1)))

/-- Layer two, on the reference's layer one. -/
theorem z2_eq : K.z2 (val_main_v32 (F := Ideal) x0 x1 x3 x4 x5 x13) x1 x6 x7 x8 x13 = val_main_v60 (F := Ideal) x0 x1 x3 x4 x5 x6 x7 x8 x13 := by
  rw [RefSide.layer2, ← msgSum2, ← cmax2]
  generalize val_main_v32 (F := Ideal) x0 x1 x3 x4 x5 x13 = z
  funext i
  show Spec.gcE (K.agg z x1 x13) (K.own z) x6 x8 (K.biasRow x7) (i 0) (i 1) = _
  rw [own_eq]
  exact Spec.gcE_eq_gcRefE (K.agg z x1 x13) (K.msgSum z x1 x13) z (K.cmax x13) x6 x8 (K.biasRow x7) x7 (i 0) (i 1)
    (fun k => KRead.agg_apply z x1 x13 (i 0) k) (KRead.cmax_ne_zero x13 (i 0)) (KRead.biasRow_apply x7 (i 1))

/-- The decoder, on the reference's layer two. -/
theorem out_eq : K.out (val_main_v60 (F := Ideal) x0 x1 x3 x4 x5 x6 x7 x8 x13) x2 x9 x10 x11 x12 x14 = val_main_v90 (F := Ideal) x0 x1 x2 x3 x4 x5 x6 x7 x8 x9 x10 x11 x12 x13 x14 := by
  rw [RefSide.scores, ← rows0, ← rows1]
  generalize val_main_v60 (F := Ideal) x0 x1 x3 x4 x5 x6 x7 x8 x13 = z
  funext i
  obtain ⟨e, rfl⟩ : ∃ e : Fin 160000, i = ix1 e := ⟨i 0, eq_ix1 i⟩
  rw [KRead.out_apply]
  show (∑ j : Fin 64, Spec.decH (K.ends z (K.row0 x14)) (K.ends z (K.row1 x14)) (K.ewCol x2) (K.wSe x9) (K.wDe x9) (K.wW x9) (K.bd1Row x10) e j * x11 (ix2 j 0))
      + K.bd2Row x12 (ix2 0 0)
    = (∑ j : Fin 64, Spec.decRefH (K.rows z (K.row0 x14)) (K.rows z (K.row1 x14)) x2 x9 x10 e j * x11 (ix2 j 0)) + x12 (ix1 0)
  rw [KRead.bd2Row_apply]
  refine congrArg (fun t => t + x12 (ix1 0)) (Finset.sum_congr rfl fun j _ => ?_)
  exact congrArg (fun t => t * x11 (ix2 j 0))
    (Spec.decH_eq_decRefH _ _ _ _ _ _ _ _ _ x2 x9 x10 e j
      (fun k => KRead.ends_apply z (K.row0 x14) (ix2 e k)) (fun k => KRead.ends_apply z (K.row1 x14) (ix2 e k))
      (KRead.ewCol_apply x2 e) (fun k => KRead.wSe_apply x9 k j) (fun k => KRead.wDe_apply x9 k j) (KRead.wW_apply x9 j)
      (KRead.bd1Row_apply x10 j))

/-- The whole network: the kernel program's function of the arguments is the reference's. -/
theorem network :
    K.out (K.z2 (K.z1 x0 x1 x3 x4 x5 x13) x1 x6 x7 x8 x13) x2 x9 x10 x11 x12 x14 = val_main_v90 (F := Ideal) x0 x1 x2 x3 x4 x5 x6 x7 x8 x9 x10 x11 x12 x13 x14 := by
  rw [z1_eq, z2_eq, out_eq]

end Cert.GNN.Bridge

end
-- ==== Proof.lean ====
/-
  A two-layer graph convolution with mean aggregation followed by an edge decoder, as a Pallas program of three dense
  stages among host gathers and scatter sums, against the plain jnp network: equal results over the extended reals.

  The frames. The kernel program's frame, at the word level and at the ideal values, is the generated one: three
  pipelined stages among four stretches of host operations. The reference has no kernel: its frame is its run with the
  result dropped.

  The ideal pass rewrote nothing in the kernel program, so there is nothing to preserve.

  The values. The kernel program's run, with the result buffer read off the last boundary beside the arguments
  (`KRun.run`), ends with the result at the program's own function of the arguments (`KChain.value`): each host stretch
  composed, each dense stage's result array as one whole-array function of its operands (`RegionA`, `RegionB`,
  `RegionC`: every entry is written by the one grid point whose block of rows holds it). The reference's run ends at
  its composed term, read stage by stage (`RefSide`). The two are one function of the arguments (`Bridge.network`):
  the gathers and the scatter sums are the same arrays on both sides and are never opened; each dense stage's two
  arrangements are joined entry by entry in `Spec` — the mean of the incoming messages as a product with the reciprocal
  of the clipped count against a quotient by it (the clipped count is at least one, so not zero, and then both are
  `s · c⁻¹`), the bias added last against added before the nodes' own term, and the decoder's three partial products
  against one product over the joined row `[source | destination | weight]` (a finite sum split at 512 and 1024). No
  step distributes or cancels, so none needs the inputs to be finite: the precondition is never opened.
-/
import proofs.«173836_j11828339933535_1_alg».proof.Defs
import proofs.«173836_j11828339933535_1_alg».proof.Proof.Gen.Kernel
import proofs.«173836_j11828339933535_1_alg».proof.Proof.Gen.Kernel.Frame
import proofs.«173836_j11828339933535_1_alg».proof.Proof.Gen.KernelIdeal
import proofs.«173836_j11828339933535_1_alg».proof.Proof.Gen.KernelIdeal.Frame
import proofs.«173836_j11828339933535_1_alg».proof.Proof.Gen.ReferenceIdeal
import proofs.«173836_j11828339933535_1_alg».proof.Proof.Gen.ReferenceIdeal.Run
import proofs.«173836_j11828339933535_1_alg».proof.Proof.Gen.ReferenceIdeal.Read
import proofs.«173836_j11828339933535_1_alg».proof.Proof.Gen.Pre_finite_inputs
import proofs.«173836_j11828339933535_1_alg».proof.Proof.KernelRun
import proofs.«173836_j11828339933535_1_alg».proof.Proof.KernelChain
import proofs.«173836_j11828339933535_1_alg».proof.Proof.Bridge
import Idealize.ShloMosaic.Adequacy
import Idealize.ShloMosaic.Init

noncomputable section

namespace Cert.Proof

open Idealize.ShloMosaic Idealize.SL.Sem Cert.GNN

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network's scores of the labelled edges: the kernel program's run at its own function of
    the arguments, the reference's at its composed term, and the two are one function of arguments that agree. -/
theorem algebraic : Cert.algebraic_KernelIdeal_ReferenceIdeal := by
  intro m ρ m' ρ' _ hagree
  refine ⟨fun c => _, (θ_run Cert.KernelIdeal.defs _ _).mono (fun r h c => ⟨(h c).1.trans (KChain.value m ρ c), (h c).2⟩)
    (KRun.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact (Bridge.network _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
